-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S27x50000 : Shape := ⟨2, ![27, 50000]⟩
abbrev S27x128x128 : Shape := ⟨3, ![27, 128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S27x128x128 : S_.BroadcastsInDim S27x128x128 (![] : Fin 0 → Fin S27x128x128.rank)
  reducesTo_S27x128x128_S_d0_1_2 : S27x128x128.ReducesTo [0, 1, 2] S_
  bcast_S_S128 : S_.BroadcastsInDim S128 (![] : Fin 0 → Fin S128.rank)
  reducesTo_S128_S_d0 : S128.ReducesTo [0] S_
  bcast_S_S27x50000 : S_.BroadcastsInDim S27x50000 (![] : Fin 0 → Fin S27x50000.rank)
  reducesTo_S27x50000_S_d0_1 : S27x50000.ReducesTo [0, 1] S_

variable [Facts]

def fn_part1 {F : FTy → Type} [FloatOps F] (main_arg1 : IVec S27x50000 32) (main_arg6 : FVec F S128 .f32) (main_v13 : IVec S_ 1) (main_v16 : IVec S27x128x128 1) : IVec S_ 1 :=
  let main_c_5 : IVec S_ 1 := constantI S_ 1 1#1
  let main_v17 : IVec S_ 1 := (fun x v => Host.reduce IntOp.andi x v reducesTo_S27x128x128_S_d0_1_2 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 4294867296#32
  let main_v24 : IVec S27x50000 32 := broadcastInDim S27x50000 ![] bcast_S_S27x50000 main_c_8
  let main_v25 : IVec S27x50000 1 := cmpi .sge main_arg1 main_v24
  let main_c_9 : IVec S_ 32 := constantI S_ 32 100000#32
  let main_v26 : IVec S27x50000 32 := broadcastInDim S27x50000 ![] bcast_S_S27x50000 main_c_9
  let main_v27 : IVec S27x50000 1 := cmpi .slt main_arg1 main_v26
  let main_v28 : IVec S27x50000 1 := andi main_v25 main_v27
  let main_c_10 : IVec S_ 1 := constantI S_ 1 1#1
  let main_v29 : IVec S_ 1 := (fun x v => Host.reduce IntOp.andi x v reducesTo_S27x50000_S_d0_1 h_S_) main_v28 main_c_10
  let main_v30 : IVec S_ 1 := andi main_v23 main_v29
  main_v30

def fn {F : FTy → Type} [FloatOps F] (main_arg0 : FVec F S100000x128 .f32) (main_arg1 : IVec S27x50000 32) (main_arg2 : IVec S27x50000 32) (main_arg3 : FVec F S27x128x128 .f32) (main_arg4 : FVec F S128 .f32) (main_arg5 : FVec F S27x128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S27x128x128 .f32 := Host.absf main_arg3
  let main_cst_0 : FVec F S_ .f32 := constant S_ .f32 0x7F800000#32
  let main_v5 : FVec F S27x128x128 .f32 := broadcastInDim S27x128x128 ![] bcast_S_S27x128x128 main_cst_0
  let main_v6 : IVec S27x128x128 1 := cmpf .olt main_v4 main_v5
  let main_c_1 : IVec S_ 1 := constantI S_ 1 1#1
  let main_v7 : IVec S_ 1 := (fun x v => Host.reduce IntOp.andi x v reducesTo_S27x128x128_S_d0_1_2 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S27x128x128 .f32 := Host.absf main_arg5
  let main_cst_4 : FVec F S_ .f32 := constant S_ .f32 0x7F800000#32
  let main_v15 : FVec F S27x128x128 .f32 := broadcastInDim S27x128x128 ![] bcast_S_S27x128x128 main_cst_4
  let main_v16 : IVec S27x128x128 1 := cmpf .olt main_v14 main_v15
  fn_part1 (F := F) main_arg1 main_arg6 main_v13 main_v16
-- ==== Kernel.lean ====
abbrev S100000x128 : Shape := ⟨2, ![100000, 128]⟩
abbrev S27x50000 : Shape := ⟨2, ![27, 50000]⟩
abbrev S27x128x128 : Shape := ⟨3, ![27, 128, 128]⟩
abbrev S128 : Shape := ⟨1, ![128]⟩
abbrev S1350000 : Shape := ⟨1, ![1350000]⟩
abbrev S_ : Shape := ⟨0, ![]⟩
abbrev S27x50000x1 : Shape := ⟨3, ![27, 50000, 1]⟩
abbrev S1 : Shape := ⟨1, ![1]⟩
abbrev S1x1x1 : Shape := ⟨3, ![1, 1, 1]⟩
abbrev S27x50000x128 : Shape := ⟨3, ![27, 50000, 128]⟩
abbrev S1x10000x128 : Shape := ⟨3, ![1, 10000, 128]⟩
abbrev S1x128x128 : Shape := ⟨3, ![1, 128, 128]⟩
abbrev S10000x128 : Shape := ⟨2, ![10000, 128]⟩
abbrev S128x128 : Shape := ⟨2, ![128, 128]⟩
abbrev S1350000x128 : Shape := ⟨2, ![1350000, 128]⟩
abbrev S1350000x1 : Shape := ⟨2, ![1350000, 1]⟩
abbrev S1x128 : Shape := ⟨2, ![1, 128]⟩
abbrev S2000x128 : Shape := ⟨2, ![2000, 128]⟩

abbrev nBuf : Space → Nat
  | .hbm => 70
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S27x50000, .i32⟩
  | .hbm, ⟨2, _⟩ => ⟨S27x50000, .i32⟩
  | .hbm, ⟨3, _⟩ => ⟨S27x128x128, .f32⟩
  | .hbm, ⟨4, _⟩ => ⟨S128, .f32⟩
  | .hbm, ⟨5, _⟩ => ⟨S27x128x128, .f32⟩
  | .hbm, ⟨6, _⟩ => ⟨S128, .f32⟩
  | .hbm, ⟨7, _⟩ => ⟨S1350000, .i32⟩
  | .hbm, ⟨8, _⟩ => ⟨S_, .i32⟩
  | .hbm, ⟨9, _⟩ => ⟨S27x50000, .i32⟩
  | .hbm, ⟨10, _⟩ => ⟨S27x50000, .i1⟩
  | .hbm, ⟨11, _⟩ => ⟨S_, .i32⟩
  | .hbm, ⟨12, _⟩ => ⟨S27x50000, .i32⟩
  | .hbm, ⟨13, _⟩ => ⟨S27x50000, .i32⟩
  | .hbm, ⟨14, _⟩ => ⟨S27x50000, .i32⟩
  | .hbm, ⟨15, _⟩ => ⟨S27x50000x1, .i32⟩
  | .hbm, ⟨16, _⟩ => ⟨S1, .i32⟩
  | .hbm, ⟨17, _⟩ => ⟨S_, .i32⟩
  | .hbm, ⟨18, _⟩ => ⟨S27x50000x1, .i32⟩
  | .hbm, ⟨19, _⟩ => ⟨S27x50000x1, .i1⟩
  | .hbm, ⟨20, _⟩ => ⟨S1x1x1, .i32⟩
  | .hbm, ⟨21, _⟩ => ⟨S27x50000x1, .i32⟩
  | .hbm, ⟨22, _⟩ => ⟨S27x50000x1, .i1⟩
  | .hbm, ⟨23, _⟩ => ⟨S27x50000x1, .i1⟩
  | .hbm, ⟨24, _⟩ => ⟨S_, .i1⟩
  | .hbm, ⟨25, _⟩ => ⟨S27x50000, .i1⟩
  | .hbm, ⟨26, _⟩ => ⟨S27x50000x128, .f32⟩
  | .hbm, ⟨27, _⟩ => ⟨S27x50000x128, .i1⟩
  | .hbm, ⟨28, _⟩ => ⟨S_, .f32⟩
  | .hbm, ⟨29, _⟩ => ⟨S27x50000x128, .f32⟩
  | .hbm, ⟨30, _⟩ => ⟨S27x50000x128, .f32⟩
  | .hbm, ⟨31, _⟩ => ⟨S27x50000x128, .f32⟩
  | .hbm, ⟨32, _⟩ => ⟨S1350000x128, .f32⟩
  | .hbm, ⟨33, _⟩ => ⟨S_, .f32⟩
  | .hbm, ⟨34, _⟩ => ⟨S100000x128, .f32⟩
  | .hbm, ⟨35, _⟩ => ⟨S1350000x1, .i32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S27x50000, .i32⟩
  | .hbm, ⟨41, _⟩ => ⟨S27x50000, .i1⟩
  | .hbm, ⟨42, _⟩ => ⟨S_, .i32⟩
  | .hbm, ⟨43, _⟩ => ⟨S27x50000, .i32⟩
  | .hbm, ⟨44, _⟩ => ⟨S27x50000, .i32⟩
  | .hbm, ⟨45, _⟩ => ⟨S27x50000, .i32⟩
  | .hbm, ⟨46, _⟩ => ⟨S27x50000x1, .i32⟩
  | .hbm, ⟨47, _⟩ => ⟨S1, .i32⟩
  | .hbm, ⟨48, _⟩ => ⟨S_, .i32⟩
  | .hbm, ⟨49, _⟩ => ⟨S27x50000x1, .i32⟩
  | .hbm, ⟨50, _⟩ => ⟨S27x50000x1, .i1⟩
  | .hbm, ⟨51, _⟩ => ⟨S1x1x1, .i32⟩
  | .hbm, ⟨52, _⟩ => ⟨S27x50000x1, .i32⟩
  | .hbm, ⟨53, _⟩ => ⟨S27x50000x1, .i1⟩
  | .hbm, ⟨54, _⟩ => ⟨S27x50000x1, .i1⟩
  | .hbm, ⟨55, _⟩ => ⟨S_, .i1⟩
  | .hbm, ⟨56, _⟩ => ⟨S27x50000, .i1⟩
  | .hbm, ⟨57, _⟩ => ⟨S27x50000x128, .f32⟩
  | .hbm, ⟨58, _⟩ => ⟨S27x50000x128, .i1⟩
  | .hbm, ⟨59, _⟩ => ⟨S_, .f32⟩
  | .hbm, ⟨60, _⟩ => ⟨S27x50000x128, .f32⟩
  | .hbm, ⟨61, _⟩ => ⟨S27x50000x128, .f32⟩
  | .hbm, ⟨62, _⟩ => ⟨S27x50000x128, .f32⟩
  | .hbm, ⟨63, _⟩ => ⟨S1350000x128, .f32⟩
  | .hbm, ⟨64, _⟩ => ⟨S_, .f32⟩
  | .hbm, ⟨65, _⟩ => ⟨S100000x128, .f32⟩
  | .hbm, ⟨66, _⟩ => ⟨S1350000x1, .i32⟩
  | .hbm, ⟨67, _⟩ => ⟨S100000x128, .f32⟩
  | .hbm, ⟨68, _⟩ => ⟨S1x128, .f32⟩
  | .hbm, ⟨69, _⟩ => ⟨S100000x128, .f32⟩
  | .local _ .vmem, ⟨0, _⟩ => ⟨S1x10000x128, .f32⟩
  | .local _ .vmem, ⟨1, _⟩ => ⟨S1x10000x128, .f32⟩
  | .local _ .vmem, ⟨2, _⟩ => ⟨S1x128x128, .f32⟩
  | .local _ .vmem, ⟨3, _⟩ => ⟨S1x128x128, .f32⟩
  | .local _ .vmem, ⟨4, _⟩ => ⟨S1x10000x128, .f32⟩
  | .local _ .vmem, ⟨5, _⟩ => ⟨S1x10000x128, .f32⟩
  | .local _ .vmem, ⟨6, _⟩ => ⟨S2000x128, .f32⟩
  | .local _ .vmem, ⟨7, _⟩ => ⟨S2000x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S1x10000x128, .f32⟩
  | .local _ .vmem, ⟨12, _⟩ => ⟨S1x10000x128, .f32⟩
  | .local _ .vmem, ⟨13, _⟩ => ⟨S1x128x128, .f32⟩
  | .local _ .vmem, ⟨14, _⟩ => ⟨S1x128x128, .f32⟩
  | .local _ .vmem, ⟨15, _⟩ => ⟨S1x10000x128, .f32⟩
  | .local _ .vmem, ⟨16, _⟩ => ⟨S1x10000x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_cst_0 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![27, 5], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S27x50000_S1350000 : S27x50000.ShapeCasts S1350000
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  bcast_S_S27x50000x1 : S_.BroadcastsInDim S27x50000x1 (![] : Fin 0 → Fin S27x50000x1.rank)
  bcast_S1_S1x1x1_2 : S1.BroadcastsInDim S1x1x1 (![2] : Fin 1 → Fin S1x1x1.rank)
  bcast_S1x1x1_S27x50000x1_0_1_2 : S1x1x1.BroadcastsInDim S27x50000x1 (![0, 1, 2] : Fin 3 → Fin S27x50000x1.rank)
  reducesTo_S27x50000x1_S27x50000_d2 : S27x50000x1.ReducesTo [2] S27x50000
  h_S_ : 0 < S_.numel
  bcast_S27x50000_S27x50000x128_0_1 : S27x50000.BroadcastsInDim S27x50000x128 (![0, 1] : Fin 2 → Fin S27x50000x128.rank)
  bcast_S_S27x50000x128 : S_.BroadcastsInDim S27x50000x128 (![] : Fin 0 → Fin S27x50000x128.rank)
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S10000x128_S1x10000x128 : S10000x128.ShapeCasts S1x10000x128
  shapeCasts_S27x50000x128_S1350000x128 : S27x50000x128.ShapeCasts S1350000x128
  bcast_S_S100000x128 : S_.BroadcastsInDim S100000x128 (![] : Fin 0 → Fin S100000x128.rank)
  bcast_S1350000_S1350000x1_0 : S1350000.BroadcastsInDim S1350000x1 (![0] : Fin 1 → Fin S1350000x1.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S27x50000x1_S27x50000x128_2_0_n_n_0_2_1128_wf : GatherDims.WF S100000x128 S27x50000x1 S27x50000x128 [2] [0] [] [0] [] 2 ![1, 128]
  dot_S10000x128_S128x128_S10000x128_1_0_0_1_n_n_wf : DotDims.WF S10000x128 S128x128 S10000x128 [1] [0] [0] [1] [] []
  scatter_S100000x128_S1350000x1_S1350000x128_1_0_0_1_wf : ScatterDims.WF S100000x128 S1350000x1 S1350000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x128.size a ≤ S27x50000x128.size a
  hwx0_0 : ∀ i : grid0.Coords, EltTy.bits .f32 = 32 ∨ (Rect.block (s := S27x50000x128) S1x10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S27x128x128.size a
  hwx0_1 : ∀ i : grid0.Coords, EltTy.bits .f32 = 32 ∨ (Rect.block (s := S27x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x128.size a ≤ S27x50000x128.size a
  hwx0_2 : ∀ i : grid0.Coords, EltTy.bits .f32 = 32 ∨ (Rect.block (s := S27x50000x128) S1x10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x10000x128.size a ≤ S27x50000x128.size a
  hwx2_0 : ∀ i : grid2.Coords, EltTy.bits .f32 = 32 ∨ (Rect.block (s := S27x50000x128) S1x10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x128.size a ≤ S27x128x128.size a
  hwx2_1 : ∀ i : grid2.Coords, EltTy.bits .f32 = 32 ∨ (Rect.block (s := S27x128x128) S1x128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x10000x128.size a ≤ S27x50000x128.size a
  hwx2_2 : ∀ i : grid2.Coords, EltTy.bits .f32 = 32 ∨ (Rect.block (s := S27x50000x128) S1x10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)

variable [Facts₀]

def gather_S100000x128_S27x50000x1_S27x50000x128_2_0_n_n_0_2_1128 : GatherDims S100000x128 S27x50000x1 S27x50000x128 where
  offsetDims := [2]
  collapsedSliceDims := [0]
  operandBatchingDims := []
  startIndicesBatchingDims := []
  startIndexMap := [0]
  indexVectorDim := 2
  sliceSizes := ![1, 128]
  wf := gather_S100000x128_S27x50000x1_S27x50000x128_2_0_n_n_0_2_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000x128_S1350000x1_S1350000x128_1_0_0_1 : ScatterDims S100000x128 S1350000x1 S1350000x128 where
  updateWindowDims := [1]
  insertedWindowDims := [0]
  scatterDimsToOperandDims := [0]
  indexVectorDim := 1
  wf := scatter_S100000x128_S1350000x1_S1350000x128_1_0_0_1_wf

abbrev win0_0 : Pipeline.Window sig grid0 :=
  Pipeline.Window.ofSpec (Memref.whole main_v1) S1x10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S1x10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1x128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v14) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v16) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S27x50000 : Shape := ⟨2, ![27, 50000]⟩
abbrev S27x128x128 : Shape := ⟨3, ![27, 128, 128]⟩
abbrev S128 : Shape := ⟨1, ![128]⟩
abbrev S_ : Shape := ⟨0, ![]⟩
abbrev S27x50000x1 : Shape := ⟨3, ![27, 50000, 1]⟩
abbrev S27x50000x128 : Shape := ⟨3, ![27, 50000, 128]⟩
abbrev S1350000x128 : Shape := ⟨2, ![1350000, 128]⟩
abbrev S1350000 : Shape := ⟨1, ![1350000]⟩
abbrev S1350000x1 : Shape := ⟨2, ![1350000, 1]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S27x50000, .i32⟩
  | .hbm, ⟨2, _⟩ => ⟨S27x50000, .i32⟩
  | .hbm, ⟨3, _⟩ => ⟨S27x128x128, .f32⟩
  | .hbm, ⟨4, _⟩ => ⟨S128, .f32⟩
  | .hbm, ⟨5, _⟩ => ⟨S27x128x128, .f32⟩
  | .hbm, ⟨6, _⟩ => ⟨S128, .f32⟩
  | .hbm, ⟨7, _⟩ => ⟨S_, .i32⟩
  | .hbm, ⟨8, _⟩ => ⟨S27x50000, .i32⟩
  | .hbm, ⟨9, _⟩ => ⟨S27x50000, .i1⟩
  | .hbm, ⟨10, _⟩ => ⟨S_, .i32⟩
  | .hbm, ⟨11, _⟩ => ⟨S27x50000, .i32⟩
  | .hbm, ⟨12, _⟩ => ⟨S27x50000, .i32⟩
  | .hbm, ⟨13, _⟩ => ⟨S27x50000, .i32⟩
  | .hbm, ⟨14, _⟩ => ⟨S27x50000x1, .i32⟩
  | .hbm, ⟨15, _⟩ => ⟨S27x50000x128, .f32⟩
  | .hbm, ⟨16, _⟩ => ⟨S27x50000x128, .f32⟩
  | .hbm, ⟨17, _⟩ => ⟨S1350000x128, .f32⟩
  | .hbm, ⟨18, _⟩ => ⟨S1350000, .i32⟩
  | .hbm, ⟨19, _⟩ => ⟨S_, .f32⟩
  | .hbm, ⟨20, _⟩ => ⟨S100000x128, .f32⟩
  | .hbm, ⟨21, _⟩ => ⟨S1350000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S27x50000, .i32⟩
  | .hbm, ⟨31, _⟩ => ⟨S27x50000, .i1⟩
  | .hbm, ⟨32, _⟩ => ⟨S_, .i32⟩
  | .hbm, ⟨33, _⟩ => ⟨S27x50000, .i32⟩
  | .hbm, ⟨34, _⟩ => ⟨S27x50000, .i32⟩
  | .hbm, ⟨35, _⟩ => ⟨S27x50000, .i32⟩
  | .hbm, ⟨36, _⟩ => ⟨S27x50000x1, .i32⟩
  | .hbm, ⟨37, _⟩ => ⟨S27x50000x128, .f32⟩
  | .hbm, ⟨38, _⟩ => ⟨S27x50000x128, .f32⟩
  | .hbm, ⟨39, _⟩ => ⟨S1350000x128, .f32⟩
  | .hbm, ⟨40, _⟩ => ⟨S1350000, .i32⟩
  | .hbm, ⟨41, _⟩ => ⟨S_, .f32⟩
  | .hbm, ⟨42, _⟩ => ⟨S100000x128, .f32⟩
  | .hbm, ⟨43, _⟩ => ⟨S1350000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  shapeCasts_S27x50000x128_S1350000x128 : S27x50000x128.ShapeCasts S1350000x128
  shapeCasts_S27x50000_S1350000 : S27x50000.ShapeCasts S1350000
  bcast_S_S100000x128 : S_.BroadcastsInDim S100000x128 (![] : Fin 0 → Fin S100000x128.rank)
  bcast_S1350000_S1350000x1_0 : S1350000.BroadcastsInDim S1350000x1 (![0] : Fin 1 → Fin S1350000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S27x50000x1_S27x50000x128_2_0_n_n_0_2_1128_wf : GatherDims.WF S100000x128 S27x50000x1 S27x50000x128 [2] [0] [] [0] [] 2 ![1, 128]
  dot_S27x50000x128_S27x128x128_S27x50000x128_2_1_1_2_0_0_wf : DotDims.WF S27x50000x128 S27x128x128 S27x50000x128 [2] [1] [1] [2] [0] [0]
  scatter_S100000x128_S1350000x1_S1350000x128_1_0_0_1_wf : ScatterDims.WF S100000x128 S1350000x1 S1350000x128 [1] [0] [0] 1

variable [Facts₀]

def gather_S100000x128_S27x50000x1_S27x50000x128_2_0_n_n_0_2_1128 : GatherDims S100000x128 S27x50000x1 S27x50000x128 where
  offsetDims := [2]
  collapsedSliceDims := [0]
  operandBatchingDims := []
  startIndicesBatchingDims := []
  startIndexMap := [0]
  indexVectorDim := 2
  sliceSizes := ![1, 128]
  wf := gather_S100000x128_S27x50000x1_S27x50000x128_2_0_n_n_0_2_1128_wf
def dot_S27x50000x128_S27x128x128_S27x50000x128_2_1_1_2_0_0 : DotDims S27x50000x128 S27x128x128 S27x50000x128 where
  lhsContracting := [2]
  rhsContracting := [1]
  lhsNonContracting := [1]
  rhsNonContracting := [2]
  lhsBatch := [0]
  rhsBatch := [0]
  wf := dot_S27x50000x128_S27x128x128_S27x50000x128_2_1_1_2_0_0_wf
def scatter_S100000x128_S1350000x1_S1350000x128_1_0_0_1 : ScatterDims S100000x128 S1350000x1 S1350000x128 where
  updateWindowDims := [1]
  insertedWindowDims := [0]
  scatterDimsToOperandDims := [0]
  indexVectorDim := 1
  wf := scatter_S100000x128_S1350000x1_S1350000x128_1_0_0_1_wf

class Facts : Prop extends Facts₀ where

variable [Facts]
-- ==== Proof.PreRange.lean ====
/- The admissibility predicate of the inputs ends in an all-reduction, by conjunction, of the two signed word comparisons
   -100000 ≤ x and x < 100000 over every entry x of the [27, 50000] gather-index table. Its value being the true bit on a
   device therefore says, entry by entry, that the entry read as a signed integer lies in [-100000, 100000). -/
import proofs.«428221_j16690242912796_1_alg».proof.Defs
import proofs.«428221_j16690242912796_1_alg».proof.Proof.Gen.Pre_finite_inputs
import Idealize.ShloMosaic.Lib.ReduceAll
import Idealize.ShloMosaic.Lib.StableHlo.Predicate

noncomputable section

namespace Cert.KernelIdeal.Conv

open Idealize.ShloMosaic Idealize.ShloMosaic.TcCoe Idealize.SL.Sem Cert.KernelIdeal

/-- The rank-0 result of an all-reduction has exactly one index. -/
instance scalarIdxSubsingleton : Subsingleton Cert.Pre_finite_inputs.S_.Idx := ⟨fun a b => funext fun d => d.elim0⟩

/-- The 32-bit word 4294867296 = 2³² - 100000 is the two's-complement spelling of -100000. -/
theorem toInt_lower_word : (4294867296#32 : BitVec 32).toInt = -(100000 : Int) := by decide

/-- The word 100000 is below 2³¹, so it reads as itself signed. -/
theorem toInt_upper_word : (100000#32 : BitVec 32).toInt = (100000 : Int) := by decide

/-- Under the precondition every entry of the gather-index input is a signed word in [-100000, 100000). -/
theorem in_map_range (m : (ℓ : Loc nD τ sig) → Buf (Elt Ideal) ℓ)
    (h : Cert.Pre_KernelIdeal (hPre_finite_inputs := Cert.Pre_finite_inputs.Gen.facts) m) (c : Dev nD) (i : S27x50000.Idx) :
    -(100000 : Int) ≤ (m ((c.tc : Thread nD τ).loc main_arg1) i).toInt ∧ (m ((c.tc : Thread nD τ).loc main_arg1) i).toInt < (100000 : Int) := by
  -- the predicate's one value on device c is the true bit
  have e := congrFun (h c) (fun a => a.elim0)
  dsimp only [Cert.Pre_finite_inputs.fn, Cert.Pre_finite_inputs.fn_part1] at e
  -- its last conjunct is the all-reduction of the range test over the index table
  have eall := (IntOp.andi_eq_one.1 e).2
  -- so the range test holds at entry i, and it is the conjunction of the two comparisons there
  have ei := Host.reduce_andi_all _ _ _ _ _ eall i
  obtain ⟨hge, hlt⟩ := IntOp.andi_eq_one.1 ei
  have hge' := IntOp.cmpi_sge.1 hge
  have hlt' := IntOp.cmpi_slt.1 hlt
  -- a scalar constant broadcast over the table reads that constant at every entry
  rw [show ∀ j, broadcastInDim Cert.Pre_finite_inputs.S27x50000 ![] Cert.Pre_finite_inputs.Facts.bcast_S_S27x50000
        (constantI Cert.Pre_finite_inputs.S_ 32 4294867296#32) j = 4294867296#32 from fun _ => rfl, toInt_lower_word] at hge'
  rw [show ∀ j, broadcastInDim Cert.Pre_finite_inputs.S27x50000 ![] Cert.Pre_finite_inputs.Facts.bcast_S_S27x50000
        (constantI Cert.Pre_finite_inputs.S_ 32 100000#32) j = 100000#32 from fun _ => rfl, toInt_upper_word] at hlt'
  exact ⟨hge', hlt'⟩

end Cert.KernelIdeal.Conv

end
-- ==== Proof.ConvSpec.lean ====
/-
  The whole-array functions one sparse-convolution layer is made of, over the extended reals, index by index.
  A layer gathers rows of a point table, multiplies the gathered rows of kernel offset `k` by that offset's
  128 x 128 weight matrix, scatter-adds the products back to points, and adds a bias row. The gather and the
  scatter-add are the same host operations in both programs and are carried whole; what differs between the
  programs is how the product and the bias steps are computed (tile by tile in one, in one operation in the
  other), so those are named here once:
    * `mm g w`        : entry (k, p, d) is the sum over channels c of g (k, p, c) * w (k, c, d);
    * `biasRelu y b`  : entry (n, d) is max (y (n, d) + b (0, d)) 0;
    * `biasRes y b f` : entry (n, d) is (y (n, d) + b (0, d)) + f (n, d).
  Sums over the extended reals are taken in any order (addition there is commutative and associative), so no
  finiteness is needed to identify a tiled product with the whole one.
-/
import Idealize.ShloMosaic.PureOps.Ideal
import Idealize.ShloMosaic.Lib.ValueIdx

noncomputable section

namespace Cert.SparseConv

open Idealize.ShloMosaic

/-- Gathered rows and messages: offset, pair, channel. -/
abbrev SRows : Shape := ⟨3, ![27, 50000, 128]⟩
/-- Per-offset weights: offset, input channel, output channel. -/
abbrev SWts : Shape := ⟨3, ![27, 128, 128]⟩
/-- Point features: point, channel. -/
abbrev SPts : Shape := ⟨2, ![100000, 128]⟩
/-- A bias laid out as one row. -/
abbrev SBias : Shape := ⟨2, ![1, 128]⟩

/-- The row entry (k, p, c) that meets weight (k, c, d) in the product's entry (k, p, d). -/
abbrev rowAt (i : SRows.Idx) (c : Fin 128) : SRows.Idx := fun a => match a with
  | ⟨0, _⟩ => ⟨(i 0).val, (i 0).isLt⟩
  | ⟨1, _⟩ => ⟨(i 1).val, (i 1).isLt⟩
  | ⟨2, _⟩ => ⟨c.val, c.isLt⟩
/-- The weight entry (k, c, d) of the product's entry (k, p, d). -/
abbrev wtAt (i : SRows.Idx) (c : Fin 128) : SWts.Idx := fun a => match a with
  | ⟨0, _⟩ => ⟨(i 0).val, (i 0).isLt⟩
  | ⟨1, _⟩ => ⟨c.val, c.isLt⟩
  | ⟨2, _⟩ => ⟨(i 2).val, (i 2).isLt⟩
/-- The bias row's entry under column d of a point. -/
abbrev biasAt (i : SPts.Idx) : SBias.Idx := fun a => match a with
  | ⟨0, _⟩ => ⟨0, Nat.one_pos⟩
  | ⟨1, _⟩ => ⟨(i 1).val, (i 1).isLt⟩

/-- The per-offset product: entry (k, p, d) = sum over c of g (k, p, c) * w (k, c, d). -/
def mm (g : FVec Ideal SRows .f32) (w : FVec Ideal SWts .f32) : FVec Ideal SRows .f32 :=
  fun i => ∑ c : Fin 128, g (rowAt i c) * w (wtAt i c)

/-- Bias then rectifier: entry (n, d) = max (y (n, d) + b (0, d)) 0. -/
def biasRelu (y : FVec Ideal SPts .f32) (b : FVec Ideal SBias .f32) : FVec Ideal SPts .f32 :=
  fun i => FloatOps.maximumf (F := Ideal) (FloatOps.addf (F := Ideal) (y i) (b (biasAt i))) (FloatOps.ofBits (F := Ideal) .f32 0x00000000#32)

/-- Bias then residual: entry (n, d) = (y (n, d) + b (0, d)) + f (n, d). -/
def biasRes (y : FVec Ideal SPts .f32) (b : FVec Ideal SBias .f32) (f : FVec Ideal SPts .f32) : FVec Ideal SPts .f32 :=
  fun i => FloatOps.addf (F := Ideal) (FloatOps.addf (F := Ideal) (y i) (b (biasAt i))) (f i)

end Cert.SparseConv

end
-- ==== Proof.LibTakeFill.lean ====
/-
  A gather whose out-of-range rows are replaced by a fill value ("fill mode"): the rows kept are those whose start
  index passes a range test, the test's bits are and-reduced over the index vector's axis, the row mask is laid over
  the result and a `select` keeps the gathered element where the mask is set and the fill elsewhere. When every start
  index passes the test the mask is all ones and the select is the gather itself: nothing is filled. The lemmas are
  generic in every shape and in the compared bounds; they never look inside the gathered values.
-/
import Idealize.ShloMosaic.PureOps
import Idealize.ShloMosaic.Lib.StableHlo.Predicate

noncomputable section

namespace Idealize.ShloMosaic.TakeFill

open Idealize.ShloMosaic

/-- An and-reduction, from the bit one, of a mask whose every bit is one is one at every result index: each step of the
    fold is `1 &&& 1`. No property of the reduced axes is used. -/
theorem reduce_andi_of_all_one {s t u : Shape} {axes : List (Fin s.rank)} (M : IVec s 1) (hM : ∀ i, M i = 1#1)
    (h : s.ReducesTo axes t) (hu : 0 < u.numel) :
    Host.reduce IntOp.andi M (constantI u 1 1#1) h hu = fun _ => 1#1 := by
  funext j
  unfold Host.reduce
  have key : ∀ l : List (Fin s.numel),
      l.foldl (fun r n => IntOp.andi r (M (s.rowMajor.symm n))) (1#1 : BitVec 1) = 1#1 := by
    intro l
    induction l with
    | nil => rfl
    | cons a l ih =>
      rw [List.foldl_cons, hM]
      exact ih
  exact key _

/-- A `select` under a broadcast mask whose every bit is one keeps its first operand everywhere. -/
theorem select_bcast_all_one {α : Type} {s t : Shape} (dims : Fin t.rank → Fin s.rank) (hb : t.BroadcastsInDim s dims)
    (M : IVec t 1) (hM : ∀ i, M i = 1#1) (a b : s.Idx → α) :
    select (broadcastInDim s dims hb M) a b = a := by
  funext j
  unfold select Scalar.select broadcastInDim
  exact if_pos (hM _)

/-- THE FILL-MODE TAKE with every index in range: the range test `lo ≤ idx ∧ idx ≤ hi` (signed, element by element,
    against any two bound vectors), and-reduced to a row mask, broadcast over the result and used to choose between
    the gathered value `a` and the fill `b`, chooses `a` everywhere. -/
theorem select_range_mask {α : Type} {si t u r : Shape} {axes : List (Fin si.rank)} (dims : Fin t.rank → Fin r.rank)
    (hb : t.BroadcastsInDim r dims) (hred : si.ReducesTo axes t) (hu : 0 < u.numel)
    (idx lo hi : IVec si 32)
    (hin : ∀ i, IntOp.cmpi .sge (idx i) (lo i) = 1#1 ∧ IntOp.cmpi .sle (idx i) (hi i) = 1#1)
    (a b : r.Idx → α) :
    select (broadcastInDim r dims hb
        (Host.reduce IntOp.andi (andi (cmpi .sge idx lo) (cmpi .sle idx hi)) (constantI u 1 1#1) hred hu)) a b = a := by
  have hM : ∀ i, (andi (cmpi .sge idx lo) (cmpi .sle idx hi)) i = 1#1 := by
    intro i
    show IntOp.andi (IntOp.cmpi .sge (idx i) (lo i)) (IntOp.cmpi .sle (idx i) (hi i)) = 1#1
    rw [(hin i).1, (hin i).2]; rfl
  rw [reduce_andi_of_all_one _ hM hred hu]
  exact select_bcast_all_one dims hb _ (fun _ => rfl) a b

/-- NumPy's wrap of a possibly negative index into an axis of extent `n`: `w + n` when `w` is negative, else `w`. -/
def wrapIdx (n w : BitVec 32) : BitVec 32 := Scalar.select (IntOp.cmpi .slt w 0#32) (IntOp.addi w n) w

/-- A word in `[-n, n)` (signed), wrapped, lies in `[0, n - 1]`: it passes the signed range test against `0` and `n - 1`. -/
theorem wrapIdx_in_range (n : Nat) (hn0 : 0 < n) (hn : n < 2 ^ 31) (w : BitVec 32)
    (hlo : -(n : Int) ≤ w.toInt) (hhi : w.toInt < (n : Int)) :
    IntOp.cmpi .sge (wrapIdx (BitVec.ofNat 32 n) w) 0#32 = 1#1
      ∧ IntOp.cmpi .sle (wrapIdx (BitVec.ofNat 32 n) w) (BitVec.ofNat 32 (n - 1)) = 1#1 := by
  have hnI : (BitVec.ofNat 32 n).toInt = (n : Int) := StableHlo.Predicate.toInt_ofNat_small n hn
  have hn1I : (BitVec.ofNat 32 (n - 1)).toInt = ((n - 1 : Nat) : Int) := StableHlo.Predicate.toInt_ofNat_small (n - 1) (by omega)
  -- a word whose signed value is in [0, n - 1] passes both compares
  have key : ∀ v : BitVec 32, 0 ≤ v.toInt → v.toInt ≤ (n : Int) - 1 →
      IntOp.cmpi .sge v 0#32 = 1#1 ∧ IntOp.cmpi .sle v (BitVec.ofNat 32 (n - 1)) = 1#1 := by
    intro v h0 h1
    unfold IntOp.cmpi
    simp only [StableHlo.Predicate.ofBool_eq_one_iff, BitVec.sle, decide_eq_true_eq, hn1I, BitVec.toInt_zero]
    constructor
    · exact h0
    · omega
  unfold wrapIdx Scalar.select
  by_cases hneg : w.toInt < 0
  · have hc1 : IntOp.cmpi .slt w 0#32 = 1#1 := by
      unfold IntOp.cmpi
      simp only [StableHlo.Predicate.ofBool_eq_one_iff, BitVec.slt, decide_eq_true_eq, BitVec.toInt_zero]
      exact hneg
    have hc : IntOp.cmpi .slt w 0#32 = (1 : BitVec 1) := hc1
    rw [if_pos hc]
    have hsum : (IntOp.addi w (BitVec.ofNat 32 n)).toInt = w.toInt + (n : Int) := by
      unfold IntOp.addi
      rw [BitVec.toInt_add, hnI]
      unfold Int.bmod
      have h32 : (2 : Int) ^ 32 = 4294967296 := by decide
      have h31 : (2 : Nat) ^ 31 = 2147483648 := by decide
      rw [h31] at hn
      simp only [h32, Nat.cast_ofNat]
      omega
    apply key
    · rw [hsum]; omega
    · rw [hsum]; omega
  · have hc1 : ¬ IntOp.cmpi .slt w 0#32 = 1#1 := by
      unfold IntOp.cmpi
      simp only [StableHlo.Predicate.ofBool_eq_one_iff, BitVec.slt, decide_eq_true_eq, BitVec.toInt_zero]
      exact hneg
    have hc : ¬ IntOp.cmpi .slt w 0#32 = (1 : BitVec 1) := hc1
    rw [if_neg hc]
    apply key
    · omega
    · omega

end Idealize.ShloMosaic.TakeFill

end
-- ==== Proof.GatherStage.lean ====
/-
  The row gather. Both programs first wrap a negative index NumPy's way (w + 100000 when w < 0). The reference then
  gathers the rows. The other program also tests each wrapped index against [0, 99999], and-reduces the test over
  the index vector's one-entry axis into a row mask, and keeps the gathered row where the mask is set, a fill word
  elsewhere. When every index lies in [-100000, 100000) every wrapped index passes the test, the mask is all ones,
  and the masked gather is the gather.
-/
import proofs.«428221_j16690242912796_1_alg».proof.Proof.Gen.KernelIdeal.Frame
import proofs.«428221_j16690242912796_1_alg».proof.Proof.Gen.ReferenceIdeal.Read
import proofs.«428221_j16690242912796_1_alg».proof.Proof.LibTakeFill
import Idealize.ShloMosaic.Lib.StableHlo.Run
import Idealize.ShloMosaic.Lib.Pipeline.Frame

set_option maxRecDepth 16384

noncomputable section

namespace Cert.KernelIdeal.Conv

open Idealize.ShloMosaic Idealize.ShloMosaic.TcCoe Idealize.SL.Sem Idealize.ShloMosaic.StableHlo Cert.KernelIdeal Cert.KernelIdeal.Gen

/-- The index vector after NumPy's wrap of negative entries, laid out with a trailing one-entry axis. -/
def wrapped (idx : IVec S27x50000 32) : IVec S27x50000x1 32 :=
  broadcastInDim S27x50000x1 ![0, 1] bcast_S27x50000_S27x50000x1_0_1
    (select (cmpi .slt idx (broadcastInDim S27x50000 ![] bcast_S_S27x50000 (constantI S_ 32 0#32)))
      (addi idx (broadcastInDim S27x50000 ![] bcast_S_S27x50000 (constantI S_ 32 100000#32))) idx)

/-- The masked gather: row (k, p) is row `wrapped idx (k, p)` of `x` where that index lies in [0, 99999], the fill word elsewhere. -/
def takeFill (x : FVec Ideal S100000x128 .f32) (idx : IVec S27x50000 32) : FVec Ideal S27x50000x128 .f32 :=
  select (broadcastInDim S27x50000x128 ![0, 1] bcast_S27x50000_S27x50000x128_0_1
      (Host.reduce IntOp.andi
        (andi (cmpi .sge (wrapped idx) (broadcastInDim S27x50000x1 ![] bcast_S_S27x50000x1 (constantI S_ 32 0#32)))
          (cmpi .sle (wrapped idx) (broadcastInDim S27x50000x1 ![0, 1, 2] bcast_S1x1x1_S27x50000x1_0_1_2
            (broadcastInDim S1x1x1 ![2] bcast_S1_S1x1x1_2 (constantI S1 32 99999#32)))))
        (constantI S_ 1 1#1) reducesTo_S27x50000x1_S27x50000_d2 h_S_))
    (Host.gather gather_S100000x128_S27x50000x1_S27x50000x128_2_0_n_n_0_2_1128 x (wrapped idx))
    (broadcastInDim S27x50000x128 ![] bcast_S_S27x50000x128 (constant (F := Ideal) S_ .f32 0x7FC00000#32))

/-- With every index in [-100000, 100000) the masked gather is the reference's gather of the wrapped indices. -/
theorem takeFill_eq (x : FVec Ideal S100000x128 .f32) (idx : IVec S27x50000 32)
    (hr : ∀ i, -(100000 : Int) ≤ (idx i).toInt ∧ (idx i).toInt < (100000 : Int)) :
    takeFill x idx = Cert.ReferenceIdeal.Read.val_main_v6 (F := Ideal) x idx := by
  unfold takeFill
  refine (TakeFill.select_range_mask _ _ _ _ (wrapped idx) _ _ ?_ _ _).trans ?_
  · intro i
    show IntOp.cmpi .sge (TakeFill.wrapIdx (BitVec.ofNat 32 100000) (idx _)) 0#32 = 1#1
      ∧ IntOp.cmpi .sle (TakeFill.wrapIdx (BitVec.ofNat 32 100000) (idx _)) (BitVec.ofNat 32 (100000 - 1)) = 1#1
    exact TakeFill.wrapIdx_in_range 100000 (by norm_num) (by norm_num) _ (hr _).1 (hr _).2
  · rfl

section Stretches

-- the and-reduction and the gather are compared by their operands, never opened
attribute [local irreducible] Host.reduce Host.gather

set_option maxHeartbeats 1000000

/-- The row mask after the first gather's first 19 operations: the range test of the wrapped indices, and-reduced over
    the index vector's one-entry axis. -/
theorem mask0 (W : Valuation τ sig (Elt Ideal)) :
    StableHlo.after ((hostOps0_1 (F := Ideal)).take 19) W (Proc.devRef .tc main_call0_v12)
      = Host.reduce IntOp.andi
          (andi (cmpi .sge (wrapped (W (Proc.devRef .tc main_arg1))) (broadcastInDim S27x50000x1 ![] bcast_S_S27x50000x1 (constantI S_ 32 0#32)))
            (cmpi .sle (wrapped (W (Proc.devRef .tc main_arg1))) (broadcastInDim S27x50000x1 ![0, 1, 2] bcast_S1x1x1_S27x50000x1_0_1_2
              (broadcastInDim S1x1x1 ![2] bcast_S1_S1x1x1_2 (constantI S1 32 99999#32)))))
          (constantI S_ 1 1#1) reducesTo_S27x50000x1_S27x50000_d2 h_S_ := by
  simp only [hostOps0_1, List.take_succ_cons, List.take_zero]
  after_results_simp
  unfold wrapped
  rfl

/-- The rows gathered by the first gather's first 19 operations. -/
theorem rows0 (W : Valuation τ sig (Elt Ideal)) :
    StableHlo.after ((hostOps0_1 (F := Ideal)).take 19) W (Proc.devRef .tc main_call0_v13)
      = Host.gather gather_S100000x128_S27x50000x1_S27x50000x128_2_0_n_n_0_2_1128 (W (Proc.devRef .tc main_arg0)) (wrapped (W (Proc.devRef .tc main_arg1))) := by
  simp only [hostOps0_1, List.take_succ_cons, List.take_zero]
  after_results_simp
  unfold wrapped
  rfl

/-- The first gather's last four operations: the row mask laid over the rows, the fill word laid over the rows, the select. -/
theorem fill0 (W : Valuation τ sig (Elt Ideal)) :
    StableHlo.after ((hostOps0_1 (F := Ideal)).drop 19) W (Proc.devRef .tc main_v1)
      = select (broadcastInDim S27x50000x128 ![0, 1] bcast_S27x50000_S27x50000x128_0_1 (W (Proc.devRef .tc main_call0_v12)))
          (W (Proc.devRef .tc main_call0_v13))
          (broadcastInDim S27x50000x128 ![] bcast_S_S27x50000x128 (constant (F := Ideal) S_ .f32 0x7FC00000#32)) := by
  simp only [hostOps0_1, List.drop_succ_cons, List.drop_zero]
  after_results_simp
  rfl

/-- The first gather stretch: from any contents, it leaves the masked gather of the point table by the index input. The
    stretch is its first 19 operations followed by its last four. -/
theorem take_stretch0 (W : Valuation τ sig (Elt Ideal)) :
    StableHlo.after (hostOps0_1 (F := Ideal)) W (Proc.devRef .tc main_v1)
      = takeFill (W (Proc.devRef .tc main_arg0)) (W (Proc.devRef .tc main_arg1)) := by
  have hsplit : (hostOps0_1 (F := Ideal)) = hostOps0_1.take 19 ++ hostOps0_1.drop 19 := (List.take_append_drop 19 _).symm
  rw [hsplit, StableHlo.after_append, fill0, mask0, rows0]
  rfl

/-- The row mask after the second gather's first 19 operations: the range test of the wrapped indices, and-reduced over
    the index vector's one-entry axis. -/
theorem mask2 (W : Valuation τ sig (Elt Ideal)) :
    StableHlo.after ((hostOps2 (F := Ideal)).take 19) W (Proc.devRef .tc main_call1_v12)
      = Host.reduce IntOp.andi
          (andi (cmpi .sge (wrapped (W (Proc.devRef .tc main_arg1))) (broadcastInDim S27x50000x1 ![] bcast_S_S27x50000x1 (constantI S_ 32 0#32)))
            (cmpi .sle (wrapped (W (Proc.devRef .tc main_arg1))) (broadcastInDim S27x50000x1 ![0, 1, 2] bcast_S1x1x1_S27x50000x1_0_1_2
              (broadcastInDim S1x1x1 ![2] bcast_S1_S1x1x1_2 (constantI S1 32 99999#32)))))
          (constantI S_ 1 1#1) reducesTo_S27x50000x1_S27x50000_d2 h_S_ := by
  simp only [hostOps2, List.take_succ_cons, List.take_zero]
  after_results_simp
  unfold wrapped
  rfl

/-- The rows gathered by the second gather's first 19 operations. -/
theorem rows2 (W : Valuation τ sig (Elt Ideal)) :
    StableHlo.after ((hostOps2 (F := Ideal)).take 19) W (Proc.devRef .tc main_call1_v13)
      = Host.gather gather_S100000x128_S27x50000x1_S27x50000x128_2_0_n_n_0_2_1128 (W (Proc.devRef .tc main_v8)) (wrapped (W (Proc.devRef .tc main_arg1))) := by
  simp only [hostOps2, List.take_succ_cons, List.take_zero]
  after_results_simp
  unfold wrapped
  rfl

/-- The second gather's last four operations: the row mask laid over the rows, the fill word laid over the rows, the select. -/
theorem fill2 (W : Valuation τ sig (Elt Ideal)) :
    StableHlo.after ((hostOps2 (F := Ideal)).drop 19) W (Proc.devRef .tc main_v9)
      = select (broadcastInDim S27x50000x128 ![0, 1] bcast_S27x50000_S27x50000x128_0_1 (W (Proc.devRef .tc main_call1_v12)))
          (W (Proc.devRef .tc main_call1_v13))
          (broadcastInDim S27x50000x128 ![] bcast_S_S27x50000x128 (constant (F := Ideal) S_ .f32 0x7FC00000#32)) := by
  simp only [hostOps2, List.drop_succ_cons, List.drop_zero]
  after_results_simp
  rfl

/-- The second gather stretch: the same of the first layer's output. -/
theorem take_stretch2 (W : Valuation τ sig (Elt Ideal)) :
    StableHlo.after (hostOps2 (F := Ideal)) W (Proc.devRef .tc main_v9)
      = takeFill (W (Proc.devRef .tc main_v8)) (W (Proc.devRef .tc main_arg1)) := by
  have hsplit : (hostOps2 (F := Ideal)) = hostOps2.take 19 ++ hostOps2.drop 19 := (List.take_append_drop 19 _).symm
  rw [hsplit, StableHlo.after_append, fill2, mask2, rows2]
  rfl

end Stretches

end Cert.KernelIdeal.Conv

end
-- ==== Proof.HostStretches.lean ====
/-
  The host operations between the launches, read off the contents they start from. A stretch rewrites the buffers
  its operations write and leaves every other buffer alone; which buffers those are is decided over the references.
  The stretches that matter: the reshape of the scatter indices to one long vector; after each product launch, the
  reshape of the messages to [1350000, 128], the scatter-add of those rows into a zero point table at the reshaped
  indices, and the reshape of that layer's bias vector to one row.
-/
import proofs.«428221_j16690242912796_1_alg».proof.Proof.Gen.KernelIdeal.Frame
import Idealize.ShloMosaic.Lib.StableHlo.Run
import Idealize.ShloMosaic.PureOps.Ideal

set_option maxRecDepth 16384

noncomputable section

namespace Cert.KernelIdeal.Conv

open Idealize.ShloMosaic Idealize.ShloMosaic.TcCoe Idealize.SL.Sem Idealize.ShloMosaic.StableHlo Cert.KernelIdeal Cert.KernelIdeal.Gen

/-- A TensorCore reference as a device buffer. -/
abbrev d (b : Ref sig .tc) : DevRef τ sig := Proc.devRef .tc b

/-- A buffer that no operation of the named stretch writes keeps its contents: each operation's written buffer is
    told apart from it as a reference. -/
local macro "kept_after " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## What each stretch computes -/

/-- The scatter indices as one vector of 1350000 words. -/
theorem indices_stretch (W : Valuation τ sig (Elt Ideal)) :
    after (hostOps0 (F := Ideal)) W (d main_v0) = shapeCast S1350000 (W (d main_arg2)) shapeCasts_S27x50000_S1350000 := by
  after_results
  rfl

/-- After the first product launch: its messages, as rows, scatter-added into a zero point table. -/
theorem scatter_stretch1 (W : Valuation τ sig (Elt Ideal)) :
    after (hostOps1 (F := Ideal)) W (d main_v6)
      = Host.scatterAdd (F := Ideal) scatter_S100000x128_S1350000x1_S1350000x128_1_0_0_1
          (broadcastInDim S100000x128 ![] bcast_S_S100000x128 (constant (F := Ideal) S_ .f32 0x00000000#32))
          (broadcastInDim S1350000x1 ![0] bcast_S1350000_S1350000x1_0 (W (d main_v0)))
          (shapeCast S1350000x128 (W (d main_v2)) shapeCasts_S27x50000x128_S1350000x128) := by
  after_results
  rfl

/-- The first layer's bias as one row. -/
theorem bias_stretch1 (W : Valuation τ sig (Elt Ideal)) :
    after (hostOps1 (F := Ideal)) W (d main_v7) = shapeCast S1x128 (W (d main_arg4)) shapeCasts_S128_S1x128 := by
  after_results
  rfl

/-- After the second product launch: its messages, as rows, scatter-added into a zero point table. -/
theorem scatter_stretch3 (W : Valuation τ sig (Elt Ideal)) :
    after (hostOps3 (F := Ideal)) W (d main_v14)
      = Host.scatterAdd (F := Ideal) scatter_S100000x128_S1350000x1_S1350000x128_1_0_0_1
          (broadcastInDim S100000x128 ![] bcast_S_S100000x128 (constant (F := Ideal) S_ .f32 0x00000000#32))
          (broadcastInDim S1350000x1 ![0] bcast_S1350000_S1350000x1_0 (W (d main_v0)))
          (shapeCast S1350000x128 (W (d main_v10)) shapeCasts_S27x50000x128_S1350000x128) := by
  after_results
  rfl

/-- The second layer's bias as one row. -/
theorem bias_stretch3 (W : Valuation τ sig (Elt Ideal)) :
    after (hostOps3 (F := Ideal)) W (d main_v15) = shapeCast S1x128 (W (d main_arg6)) shapeCasts_S128_S1x128 := by
  after_results
  rfl

/-! ## What each stretch leaves alone -/

/-- The index reshape leaves the other arguments alone. -/
theorem keep0 (W : Valuation τ sig (Elt Ideal)) :
    after (hostOps0 (F := Ideal)) W (d main_arg0) = W (d main_arg0)
    ∧    after (hostOps0 (F := Ideal)) W (d main_arg1) = W (d main_arg1)
    ∧    after (hostOps0 (F := Ideal)) W (d main_arg3) = W (d main_arg3)
    ∧    after (hostOps0 (F := Ideal)) W (d main_arg4) = W (d main_arg4)
    ∧    after (hostOps0 (F := Ideal)) W (d main_arg5) = W (d main_arg5)
    ∧    after (hostOps0 (F := Ideal)) W (d main_arg6) = W (d main_arg6) :=
  ⟨by kept_after hostOps0, by kept_after hostOps0, by kept_after hostOps0, by kept_after hostOps0, by kept_after hostOps0, by kept_after hostOps0⟩

/-- The first gather leaves the arguments and the reshaped scatter indices alone. -/
theorem keep0_1 (W : Valuation τ sig (Elt Ideal)) :
    after (hostOps0_1 (F := Ideal)) W (d main_arg0) = W (d main_arg0)
    ∧    after (hostOps0_1 (F := Ideal)) W (d main_arg1) = W (d main_arg1)
    ∧    after (hostOps0_1 (F := Ideal)) W (d main_arg3) = W (d main_arg3)
    ∧    after (hostOps0_1 (F := Ideal)) W (d main_arg4) = W (d main_arg4)
    ∧    after (hostOps0_1 (F := Ideal)) W (d main_arg5) = W (d main_arg5)
    ∧    after (hostOps0_1 (F := Ideal)) W (d main_arg6) = W (d main_arg6)
    ∧    after (hostOps0_1 (F := Ideal)) W (d main_v0) = W (d main_v0) :=
  ⟨by kept_after hostOps0_1, by kept_after hostOps0_1, by kept_after hostOps0_1, by kept_after hostOps0_1, by kept_after hostOps0_1, by kept_after hostOps0_1, by kept_after hostOps0_1⟩

/-- The first scatter stretch leaves these alone. -/
theorem keep1 (W : Valuation τ sig (Elt Ideal)) :
    after (hostOps1 (F := Ideal)) W (d main_arg0) = W (d main_arg0)
    ∧    after (hostOps1 (F := Ideal)) W (d main_arg1) = W (d main_arg1)
    ∧    after (hostOps1 (F := Ideal)) W (d main_arg5) = W (d main_arg5)
    ∧    after (hostOps1 (F := Ideal)) W (d main_arg6) = W (d main_arg6)
    ∧    after (hostOps1 (F := Ideal)) W (d main_v0) = W (d main_v0) :=
  ⟨by kept_after hostOps1, by kept_after hostOps1, by kept_after hostOps1, by kept_after hostOps1, by kept_after hostOps1⟩

/-- The second gather leaves these alone. -/
theorem keep2 (W : Valuation τ sig (Elt Ideal)) :
    after (hostOps2 (F := Ideal)) W (d main_arg0) = W (d main_arg0)
    ∧    after (hostOps2 (F := Ideal)) W (d main_arg5) = W (d main_arg5)
    ∧    after (hostOps2 (F := Ideal)) W (d main_arg6) = W (d main_arg6)
    ∧    after (hostOps2 (F := Ideal)) W (d main_v0) = W (d main_v0) :=
  ⟨by kept_after hostOps2, by kept_after hostOps2, by kept_after hostOps2, by kept_after hostOps2⟩

/-- The second scatter stretch leaves the point features alone. -/
theorem keep3 (W : Valuation τ sig (Elt Ideal)) :
    after (hostOps3 (F := Ideal)) W (d main_arg0) = W (d main_arg0) :=
  by kept_after hostOps3

end Cert.KernelIdeal.Conv

end
-- ==== Proof.MatmulRegion0.lean ====
/- The first product launch, read whole. Its grid is 27 kernel offsets by 5 row blocks; the point (k, b) multiplies
   rows 10000 b .. 10000 b + 9999 of offset k's gathered rows by offset k's 128 x 128 weights and writes that tile back.
   The 135 tiles fill the [27, 50000, 128] array, which so ends at (k, p, d) with the sum over c of g (k, p, c) * w (k, c, d). -/
import proofs.«428221_j16690242912796_1_alg».proof.Proof.Gen.KernelIdeal.Frame
import proofs.«428221_j16690242912796_1_alg».proof.Proof.ConvSpec
import Idealize.ShloMosaic.Lib.Pipeline.Value
import Idealize.ShloMosaic.Lib.ValueIdx
import Idealize.ShloMosaic.PureOps.Ideal.Laws

noncomputable section

namespace Cert.KernelIdeal.Conv

open Idealize.ShloMosaic Idealize.ShloMosaic.TcCoe Idealize.SL.Sem Cert.KernelIdeal Cert.KernelIdeal.Gen

namespace Tile0

/-! ## The tile product's operand indices: left (r, c), right (c, d) for the entry (r, d) and channel c -/

/-- The left operand is read on the entry's row. -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the summed channel. -/
theorem lhs_channel (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the summed channel. -/
theorem rhs_channel (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand is read on the entry's column. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## One tile -/

/-- Entry (r, d) of a tile is the sum over channels c of row entry (r, c) times weight (c, d): the leading unit axis is
    dropped from both blocks and put back on the result, rounding to the narrower float is the identity on the extended
    reals, and the accumulator starts at zero. -/
theorem tile_product (x0 : Vec Ideal S1x10000x128 .f32) (x1 : Vec Ideal S1x128x128 .f32) (u : Fin 1) (r : Fin 10000) (d : Fin 128) :
    k0_pay1 (F := Ideal) x0 x1 (ValueIdx.ix3 u r d)
      = ∑ c : Fin 128, x0 (ValueIdx.ix3 (0 : Fin 1) r c) * x1 (ValueIdx.ix3 (0 : Fin 1) c d) := by
  unfold k0_pay1
  have hu : u.val = 0 := by omega
  refine (shapeCast_apply _ shapeCasts_S10000x128_S1x10000x128 (ValueIdx.ix3 u r d) (ValueIdx.ix2 r d) (by
    rw [Shape.rowMajor_val_two, Shape.rowMajor_val_three]
    show r.val * 128 + d.val = (u.val * 10000 + r.val) * 128 + d.val
    omega)).trans ?_
  refine (Ideal.matmul_constant_zero_apply dot_S10000x128_S128x128_S10000x128_1_0_0_1_n_n none _ _ _).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : shapeCast S10000x128 x0 shapeCasts_S1x10000x128_S10000x128
      (dot_S10000x128_S128x128_S10000x128_1_0_0_1_n_n.lhsIdx (ValueIdx.ix2 r d)
        ((ValueIdx.contrEquiv1 dot_S10000x128_S128x128_S10000x128_1_0_0_1_n_n 128 rfl rfl).symm k))
      = x0 (ValueIdx.ix3 (0 : Fin 1) r k) :=
    shapeCast_apply x0 _ _ _ (by
      rw [Shape.rowMajor_val_three, Shape.rowMajor_val_two, lhs_row, (lhs_channel _ _).trans hk]
      show ((0 : ℕ) * 10000 + r.val) * 128 + k.val = r.val * 128 + k.val
      omega)
  have er : shapeCast S128x128 x1 shapeCasts_S1x128x128_S128x128
      (dot_S10000x128_S128x128_S10000x128_1_0_0_1_n_n.rhsIdx (ValueIdx.ix2 r d)
        ((ValueIdx.contrEquiv1 dot_S10000x128_S128x128_S10000x128_1_0_0_1_n_n 128 rfl rfl).symm k))
      = x1 (ValueIdx.ix3 (0 : Fin 1) k d) :=
    shapeCast_apply x1 _ _ _ (by
      rw [Shape.rowMajor_val_three, Shape.rowMajor_val_two, (rhs_channel _ _).trans hk, rhs_col]
      show ((0 : ℕ) * 128 + k.val) * 128 + d.val = k.val * 128 + d.val
      omega)
  exact congrArg₂ (· * ·) el er

/-- Inside a block of rows: the row of entry j, channel c. -/
abbrev tileRow (j : S1x10000x128.Idx) (c : Fin 128) : S1x10000x128.Idx := fun a => match a with
  | ⟨0, _⟩ => ⟨0, Nat.one_pos⟩
  | ⟨1, _⟩ => ⟨(j 1).val, (j 1).isLt⟩
  | ⟨2, _⟩ => ⟨c.val, c.isLt⟩
/-- Inside a block of weights: input channel c, the output channel of entry j. -/
abbrev tileWt (j : S1x10000x128.Idx) (c : Fin 128) : S1x128x128.Idx := fun a => match a with
  | ⟨0, _⟩ => ⟨0, Nat.one_pos⟩
  | ⟨1, _⟩ => ⟨c.val, c.isLt⟩
  | ⟨2, _⟩ => ⟨(j 2).val, (j 2).isLt⟩

/-- The tile's entry at an index given whole rather than by coordinates. -/
theorem tile_product_at (x0 : Vec Ideal S1x10000x128 .f32) (x1 : Vec Ideal S1x128x128 .f32) (j : S1x10000x128.Idx) :
    k0_pay1 (F := Ideal) x0 x1 j = ∑ c : Fin 128, x0 (tileRow j c) * x1 (tileWt j c) := by
  obtain ⟨u, r, d, rfl⟩ : ∃ (u : Fin 1) (r : Fin 10000) (d : Fin 128), j = ValueIdx.ix3 u r d :=
    ⟨j 0, j 1, j 2, ValueIdx.eq_ix3 j⟩
  refine (tile_product x0 x1 u r d).trans (Finset.sum_congr rfl fun k _ => ?_)
  have hr : ValueIdx.ix3 (0 : Fin 1) r k = tileRow (ValueIdx.ix3 u r d) k :=
    funext fun a => match a with | ⟨0, _⟩ => rfl | ⟨1, _⟩ => rfl | ⟨2, _⟩ => rfl
  have hw : ValueIdx.ix3 (0 : Fin 1) k d = tileWt (ValueIdx.ix3 u r d) k :=
    funext fun a => match a with | ⟨0, _⟩ => rfl | ⟨1, _⟩ => rfl | ⟨2, _⟩ => rfl
  rw [hr, hw]

/-! ## Where each point's blocks sit -/

theorem zero_offsets : (![0, 0, 0] : Fin 3 → Nat) = fun _ => 0 := funext fun a => by fin_cases a <;> rfl

/-- At every grid point the block of rows read and the tile written have the same block index, the block of weights
    has the same offset and sits at (0, 0) in its matrix, and the tile's block index is (k, b, 0) with k < 27, b < 5. -/
theorem tile_moves : ∀ t : Fin cfg0.N, win0_0.index t = win0_2.index t
    ∧ win0_1.index t (0 : Fin 3) = win0_2.index t (0 : Fin 3)
    ∧ win0_1.index t (1 : Fin 3) = 0 ∧ win0_1.index t (2 : Fin 3) = 0
    ∧ win0_2.index t (0 : Fin 3) ≤ 26 ∧ win0_2.index t (1 : Fin 3) ≤ 4 ∧ win0_2.index t (2 : Fin 3) = 0 :=
  (by decide +kernel : ∀ t : Fin grid0.N, _)

/-- Every pair (offset k, row block b) is some grid point's tile. -/
theorem tile_onto : ∀ (q0 : Fin 27) (q1 : Fin 5), ∃ t : Fin cfg0.N, win0_2.index t = ![q0.val, q1.val, 0] :=
  (by decide +kernel : ∀ (q0 : Fin 27) (q1 : Fin 5), ∃ t : Fin grid0.N, win0_2.index t = ![q0.val, q1.val, 0])

/-- What grid point t writes back is its tile of the whole product of the arrays as the launch finds them: the rows'
    block and the tile share their place, and the weights' block is offset k's whole matrix. -/
theorem tile_written (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.SparseConv.mm (V c main_v1) (V c main_arg3)) := by
  show (cfg0.win 2).cut (grid0.coords t) ((dat0 (F := Ideal) V c).after 2 t) = _
  rw [after0_2]
  unfold out0_2
  rw [View.canon_unit_zero zero_offsets]
  simp only [View.ld_unit_zero (S := S1x10000x128) zero_offsets, View.ld_unit_zero (S := S1x128x128) zero_offsets]
  funext j
  show k0_pay1 (F := Ideal) (iblk0 V c 0 t) (iblk0 V c 1 t) j
    = Cert.SparseConv.mm (V c main_v1) (V c main_arg3) (((cfg0.win 2).blk t).view.emb j)
  refine (tile_product_at _ _ j).trans (Finset.sum_congr rfl fun k _ => ?_)
  obtain ⟨e0, e1, e2, e3, b0, b1, b2⟩ := tile_moves t
  have f0 : win0_0.index t (0 : Fin 3) = win0_2.index t (0 : Fin 3) := congrFun e0 0
  have f1 : win0_0.index t (1 : Fin 3) = win0_2.index t (1 : Fin 3) := congrFun e0 1
  have f2 : win0_0.index t (2 : Fin 3) = win0_2.index t (2 : Fin 3) := congrFun e0 2
  have hj0 : (j 0).val < 1 := (j 0).isLt
  have hl : iblk0 V c 0 t (tileRow j k)
      = V c main_v1 (Cert.SparseConv.rowAt (((cfg0.win 2).blk t).view.emb j) k) := by
    show V c main_v1 (((cfg0.win 0).blk t).view.emb (tileRow j k)) = _
    refine congrArg _ (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 10000 + 1 * (j 1).val = win0_2.index t (1 : Fin 3) * 10000 + 1 * (j 1).val; omega
    | ⟨2, _⟩ => show win0_0.index t (2 : Fin 3) * 128 + 1 * k.val = k.val; omega
  have hw : iblk0 V c 1 t (tileWt j k)
      = V c main_arg3 (Cert.SparseConv.wtAt (((cfg0.win 2).blk t).view.emb j) k) := by
    show V c main_arg3 (((cfg0.win 1).blk t).view.emb (tileWt j k)) = _
    refine congrArg _ (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 128 + 1 * k.val = k.val; omega
    | ⟨2, _⟩ => show win0_1.index t (2 : Fin 3) * 128 + 1 * (j 2).val = win0_2.index t (2 : Fin 3) * 128 + 1 * (j 2).val; omega
  rw [hl, hw]

/-! ## The tiles fill the array -/

/-- An index of the product array lies in point t's tile exactly when each coordinate lies in the tile's range on its axis. -/
theorem mem_tile (t : Fin cfg0.N) (i : S27x50000x128.Idx) :
    i ∈ ((cfg0.win 2).blk t).view.set ↔ ∀ a : Fin 3, win0_2.index t a * S1x10000x128.size a ≤ (i a).val ∧ (i a).val < win0_2.index t a * S1x10000x128.size a + S1x10000x128.size a := by
  show i ∈ ((View.whole main_v2).slice (win0_2.rect t)).set ↔ _
  rw [View.set_slice_whole, Rect.mem_set_unit]
  exact Iff.rfl

/-- Entry (k, p, d) lies in the tile of offset k and row block p / 10000, and every tile is written back. -/
theorem tiles_cover (i : S27x50000x128.Idx) :
    ∃ t : Fin cfg0.N, (cfg0.win 2).flush t = true ∧ i ∈ ((cfg0.win 2).blk t).view.set := by
  have hi0 : (i 0).val < 27 := (i 0).isLt
  have hi1 : (i 1).val < 50000 := (i 1).isLt
  have hi2 : (i 2).val < 128 := (i 2).isLt
  obtain ⟨t, ht⟩ := tile_onto ⟨(i 0).val, hi0⟩ ⟨(i 1).val / 10000, by omega⟩
  have q0 : win0_2.index t (0 : Fin 3) = (i 0).val := congrFun ht 0
  have q1 : win0_2.index t (1 : Fin 3) = (i 1).val / 10000 := congrFun ht 1
  have q2 : win0_2.index t (2 : Fin 3) = 0 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 10000 ≤ (i 1).val ∧ (i 1).val < win0_2.index t (1 : Fin 3) * 10000 + 10000; omega
  | ⟨2, _⟩ => show win0_2.index t (2 : Fin 3) * 128 ≤ (i 2).val ∧ (i 2).val < win0_2.index t (2 : Fin 3) * 128 + 128; omega

end Tile0

/-- What the first product launch leaves in its output array, whatever the buffers hold when it is entered. -/
theorem region0_value (V : (c : Dev nD) → (b : Ref sig .tc) → Buf (Elt Ideal) ((c : Thread nD τ).loc b)) (c : Dev nD) :
    (dat0 (F := Ideal) V c).arrAt 2 cfg0.N = Cert.SparseConv.mm (V c main_v1) (V c main_arg3) :=
  (dat0 (F := Ideal) V c).arrAt_eq_of_cover 2 _ (fun t _ => Tile0.tile_written V c t) Tile0.tiles_cover

end Cert.KernelIdeal.Conv

end
-- ==== Proof.MatmulRegion2.lean ====
/- The second product launch, read whole. Its grid is 27 kernel offsets by 5 row blocks; the point (k, b) multiplies
   rows 10000 b .. 10000 b + 9999 of offset k's gathered rows by offset k's 128 x 128 weights and writes that tile back.
   The 135 tiles fill the [27, 50000, 128] array, which so ends at (k, p, d) with the sum over c of g (k, p, c) * w (k, c, d). -/
import proofs.«428221_j16690242912796_1_alg».proof.Proof.Gen.KernelIdeal.Frame
import proofs.«428221_j16690242912796_1_alg».proof.Proof.ConvSpec
import Idealize.ShloMosaic.Lib.Pipeline.Value
import Idealize.ShloMosaic.Lib.ValueIdx
import Idealize.ShloMosaic.PureOps.Ideal.Laws

noncomputable section

namespace Cert.KernelIdeal.Conv

open Idealize.ShloMosaic Idealize.ShloMosaic.TcCoe Idealize.SL.Sem Cert.KernelIdeal Cert.KernelIdeal.Gen

namespace Tile2

/-! ## The tile product's operand indices: left (r, c), right (c, d) for the entry (r, d) and channel c -/

/-- The left operand is read on the entry's row. -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the summed channel. -/
theorem lhs_channel (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the summed channel. -/
theorem rhs_channel (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand is read on the entry's column. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## One tile -/

/-- Entry (r, d) of a tile is the sum over channels c of row entry (r, c) times weight (c, d): the leading unit axis is
    dropped from both blocks and put back on the result, rounding to the narrower float is the identity on the extended
    reals, and the accumulator starts at zero. -/
theorem tile_product (x0 : Vec Ideal S1x10000x128 .f32) (x1 : Vec Ideal S1x128x128 .f32) (u : Fin 1) (r : Fin 10000) (d : Fin 128) :
    k2_pay1 (F := Ideal) x0 x1 (ValueIdx.ix3 u r d)
      = ∑ c : Fin 128, x0 (ValueIdx.ix3 (0 : Fin 1) r c) * x1 (ValueIdx.ix3 (0 : Fin 1) c d) := by
  unfold k2_pay1
  have hu : u.val = 0 := by omega
  refine (shapeCast_apply _ shapeCasts_S10000x128_S1x10000x128 (ValueIdx.ix3 u r d) (ValueIdx.ix2 r d) (by
    rw [Shape.rowMajor_val_two, Shape.rowMajor_val_three]
    show r.val * 128 + d.val = (u.val * 10000 + r.val) * 128 + d.val
    omega)).trans ?_
  refine (Ideal.matmul_constant_zero_apply dot_S10000x128_S128x128_S10000x128_1_0_0_1_n_n none _ _ _).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : shapeCast S10000x128 x0 shapeCasts_S1x10000x128_S10000x128
      (dot_S10000x128_S128x128_S10000x128_1_0_0_1_n_n.lhsIdx (ValueIdx.ix2 r d)
        ((ValueIdx.contrEquiv1 dot_S10000x128_S128x128_S10000x128_1_0_0_1_n_n 128 rfl rfl).symm k))
      = x0 (ValueIdx.ix3 (0 : Fin 1) r k) :=
    shapeCast_apply x0 _ _ _ (by
      rw [Shape.rowMajor_val_three, Shape.rowMajor_val_two, lhs_row, (lhs_channel _ _).trans hk]
      show ((0 : ℕ) * 10000 + r.val) * 128 + k.val = r.val * 128 + k.val
      omega)
  have er : shapeCast S128x128 x1 shapeCasts_S1x128x128_S128x128
      (dot_S10000x128_S128x128_S10000x128_1_0_0_1_n_n.rhsIdx (ValueIdx.ix2 r d)
        ((ValueIdx.contrEquiv1 dot_S10000x128_S128x128_S10000x128_1_0_0_1_n_n 128 rfl rfl).symm k))
      = x1 (ValueIdx.ix3 (0 : Fin 1) k d) :=
    shapeCast_apply x1 _ _ _ (by
      rw [Shape.rowMajor_val_three, Shape.rowMajor_val_two, (rhs_channel _ _).trans hk, rhs_col]
      show ((0 : ℕ) * 128 + k.val) * 128 + d.val = k.val * 128 + d.val
      omega)
  exact congrArg₂ (· * ·) el er

/-- Inside a block of rows: the row of entry j, channel c. -/
abbrev tileRow (j : S1x10000x128.Idx) (c : Fin 128) : S1x10000x128.Idx := fun a => match a with
  | ⟨0, _⟩ => ⟨0, Nat.one_pos⟩
  | ⟨1, _⟩ => ⟨(j 1).val, (j 1).isLt⟩
  | ⟨2, _⟩ => ⟨c.val, c.isLt⟩
/-- Inside a block of weights: input channel c, the output channel of entry j. -/
abbrev tileWt (j : S1x10000x128.Idx) (c : Fin 128) : S1x128x128.Idx := fun a => match a with
  | ⟨0, _⟩ => ⟨0, Nat.one_pos⟩
  | ⟨1, _⟩ => ⟨c.val, c.isLt⟩
  | ⟨2, _⟩ => ⟨(j 2).val, (j 2).isLt⟩

/-- The tile's entry at an index given whole rather than by coordinates. -/
theorem tile_product_at (x0 : Vec Ideal S1x10000x128 .f32) (x1 : Vec Ideal S1x128x128 .f32) (j : S1x10000x128.Idx) :
    k2_pay1 (F := Ideal) x0 x1 j = ∑ c : Fin 128, x0 (tileRow j c) * x1 (tileWt j c) := by
  obtain ⟨u, r, d, rfl⟩ : ∃ (u : Fin 1) (r : Fin 10000) (d : Fin 128), j = ValueIdx.ix3 u r d :=
    ⟨j 0, j 1, j 2, ValueIdx.eq_ix3 j⟩
  refine (tile_product x0 x1 u r d).trans (Finset.sum_congr rfl fun k _ => ?_)
  have hr : ValueIdx.ix3 (0 : Fin 1) r k = tileRow (ValueIdx.ix3 u r d) k :=
    funext fun a => match a with | ⟨0, _⟩ => rfl | ⟨1, _⟩ => rfl | ⟨2, _⟩ => rfl
  have hw : ValueIdx.ix3 (0 : Fin 1) k d = tileWt (ValueIdx.ix3 u r d) k :=
    funext fun a => match a with | ⟨0, _⟩ => rfl | ⟨1, _⟩ => rfl | ⟨2, _⟩ => rfl
  rw [hr, hw]

/-! ## Where each point's blocks sit -/

theorem zero_offsets : (![0, 0, 0] : Fin 3 → Nat) = fun _ => 0 := funext fun a => by fin_cases a <;> rfl

/-- At every grid point the block of rows read and the tile written have the same block index, the block of weights
    has the same offset and sits at (0, 0) in its matrix, and the tile's block index is (k, b, 0) with k < 27, b < 5. -/
theorem tile_moves : ∀ t : Fin cfg2.N, win2_0.index t = win2_2.index t
    ∧ win2_1.index t (0 : Fin 3) = win2_2.index t (0 : Fin 3)
    ∧ win2_1.index t (1 : Fin 3) = 0 ∧ win2_1.index t (2 : Fin 3) = 0
    ∧ win2_2.index t (0 : Fin 3) ≤ 26 ∧ win2_2.index t (1 : Fin 3) ≤ 4 ∧ win2_2.index t (2 : Fin 3) = 0 :=
  (by decide +kernel : ∀ t : Fin grid2.N, _)

/-- Every pair (offset k, row block b) is some grid point's tile. -/
theorem tile_onto : ∀ (q0 : Fin 27) (q1 : Fin 5), ∃ t : Fin cfg2.N, win2_2.index t = ![q0.val, q1.val, 0] :=
  (by decide +kernel : ∀ (q0 : Fin 27) (q1 : Fin 5), ∃ t : Fin grid2.N, win2_2.index t = ![q0.val, q1.val, 0])

/-- What grid point t writes back is its tile of the whole product of the arrays as the launch finds them: the rows'
    block and the tile share their place, and the weights' block is offset k's whole matrix. -/
theorem tile_written (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.SparseConv.mm (V c main_v9) (V c main_arg5)) := by
  show (cfg2.win 2).cut (grid2.coords t) ((dat2 (F := Ideal) V c).after 2 t) = _
  rw [after2_2]
  unfold out2_2
  rw [View.canon_unit_zero zero_offsets]
  simp only [View.ld_unit_zero (S := S1x10000x128) zero_offsets, View.ld_unit_zero (S := S1x128x128) zero_offsets]
  funext j
  show k2_pay1 (F := Ideal) (iblk2 V c 0 t) (iblk2 V c 1 t) j
    = Cert.SparseConv.mm (V c main_v9) (V c main_arg5) (((cfg2.win 2).blk t).view.emb j)
  refine (tile_product_at _ _ j).trans (Finset.sum_congr rfl fun k _ => ?_)
  obtain ⟨e0, e1, e2, e3, b0, b1, b2⟩ := tile_moves t
  have f0 : win2_0.index t (0 : Fin 3) = win2_2.index t (0 : Fin 3) := congrFun e0 0
  have f1 : win2_0.index t (1 : Fin 3) = win2_2.index t (1 : Fin 3) := congrFun e0 1
  have f2 : win2_0.index t (2 : Fin 3) = win2_2.index t (2 : Fin 3) := congrFun e0 2
  have hj0 : (j 0).val < 1 := (j 0).isLt
  have hl : iblk2 V c 0 t (tileRow j k)
      = V c main_v9 (Cert.SparseConv.rowAt (((cfg2.win 2).blk t).view.emb j) k) := by
    show V c main_v9 (((cfg2.win 0).blk t).view.emb (tileRow j k)) = _
    refine congrArg _ (funext fun a => Fin.ext ?_)
    match a with
    | ⟨0, _⟩ => show win2_0.index t (0 : Fin 3) * 1 + 1 * 0 = win2_2.index t (0 : Fin 3) * 1 + 1 * (j 0).val; omega
    | ⟨1, _⟩ => show win2_0.index t (1 : Fin 3) * 10000 + 1 * (j 1).val = win2_2.index t (1 : Fin 3) * 10000 + 1 * (j 1).val; omega
    | ⟨2, _⟩ => show win2_0.index t (2 : Fin 3) * 128 + 1 * k.val = k.val; omega
  have hw : iblk2 V c 1 t (tileWt j k)
      = V c main_arg5 (Cert.SparseConv.wtAt (((cfg2.win 2).blk t).view.emb j) k) := by
    show V c main_arg5 (((cfg2.win 1).blk t).view.emb (tileWt j k)) = _
    refine congrArg _ (funext fun a => Fin.ext ?_)
    match a with
    | ⟨0, _⟩ => show win2_1.index t (0 : Fin 3) * 1 + 1 * 0 = win2_2.index t (0 : Fin 3) * 1 + 1 * (j 0).val; omega
    | ⟨1, _⟩ => show win2_1.index t (1 : Fin 3) * 128 + 1 * k.val = k.val; omega
    | ⟨2, _⟩ => show win2_1.index t (2 : Fin 3) * 128 + 1 * (j 2).val = win2_2.index t (2 : Fin 3) * 128 + 1 * (j 2).val; omega
  rw [hl, hw]

/-! ## The tiles fill the array -/

/-- An index of the product array lies in point t's tile exactly when each coordinate lies in the tile's range on its axis. -/
theorem mem_tile (t : Fin cfg2.N) (i : S27x50000x128.Idx) :
    i ∈ ((cfg2.win 2).blk t).view.set ↔ ∀ a : Fin 3, win2_2.index t a * S1x10000x128.size a ≤ (i a).val ∧ (i a).val < win2_2.index t a * S1x10000x128.size a + S1x10000x128.size a := by
  show i ∈ ((View.whole main_v10).slice (win2_2.rect t)).set ↔ _
  rw [View.set_slice_whole, Rect.mem_set_unit]
  exact Iff.rfl

/-- Entry (k, p, d) lies in the tile of offset k and row block p / 10000, and every tile is written back. -/
theorem tiles_cover (i : S27x50000x128.Idx) :
    ∃ t : Fin cfg2.N, (cfg2.win 2).flush t = true ∧ i ∈ ((cfg2.win 2).blk t).view.set := by
  have hi0 : (i 0).val < 27 := (i 0).isLt
  have hi1 : (i 1).val < 50000 := (i 1).isLt
  have hi2 : (i 2).val < 128 := (i 2).isLt
  obtain ⟨t, ht⟩ := tile_onto ⟨(i 0).val, hi0⟩ ⟨(i 1).val / 10000, by omega⟩
  have q0 : win2_2.index t (0 : Fin 3) = (i 0).val := congrFun ht 0
  have q1 : win2_2.index t (1 : Fin 3) = (i 1).val / 10000 := congrFun ht 1
  have q2 : win2_2.index t (2 : Fin 3) = 0 := congrFun ht 2
  refine ⟨t, flush2_2 t, ?_⟩
  rw [mem_tile]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 10000 ≤ (i 1).val ∧ (i 1).val < win2_2.index t (1 : Fin 3) * 10000 + 10000; omega
  | ⟨2, _⟩ => show win2_2.index t (2 : Fin 3) * 128 ≤ (i 2).val ∧ (i 2).val < win2_2.index t (2 : Fin 3) * 128 + 128; omega

end Tile2

/-- What the second product launch leaves in its output array, whatever the buffers hold when it is entered. -/
theorem region2_value (V : (c : Dev nD) → (b : Ref sig .tc) → Buf (Elt Ideal) ((c : Thread nD τ).loc b)) (c : Dev nD) :
    (dat2 (F := Ideal) V c).arrAt 2 cfg2.N = Cert.SparseConv.mm (V c main_v9) (V c main_arg5) :=
  (dat2 (F := Ideal) V c).arrAt_eq_of_cover 2 _ (fun t _ => Tile2.tile_written V c t) Tile2.tiles_cover

end Cert.KernelIdeal.Conv

end
-- ==== Proof.BiasRegions.lean ====
/- Each of the two elementwise launches walks the [100000, 128] point table in fifty blocks of 2000 rows.
   At block row r, column d the first leaves max (y (r, d) + b (0, d)) 0 and the second (y (r, d) + b (0, d)) + f (r, d);
   block n sits at rows 2000 n .. 2000 n + 1999, so the fifty blocks tile the table and each launch is one whole-array function. -/
import proofs.«428221_j16690242912796_1_alg».proof.Proof.Gen.KernelIdeal.Frame
import proofs.«428221_j16690242912796_1_alg».proof.Proof.ConvSpec
import Idealize.ShloMosaic.Lib.Pipeline.Value
import Idealize.ShloMosaic.Lib.ValueIdx
import Idealize.ShloMosaic.Lib.ValueLayout

noncomputable section

namespace Cert.KernelIdeal.Conv

open Idealize.ShloMosaic Idealize.ShloMosaic.TcCoe Idealize.SL.Sem Cert.KernelIdeal Cert.KernelIdeal.Gen

/-- The two zero offsets of a whole-block access, as a constant function. -/
theorem zeroOffsets : (![0, 0] : Fin 2 → Nat) = fun _ => 0 := funext fun a => by fin_cases a <;> rfl

/-- The bias row's entry under column d of a block row. -/
abbrev biasUnder (j : S2000x128.Idx) : S1x128.Idx := fun a => match a with
  | ⟨0, _⟩ => ⟨0, Nat.one_pos⟩
  | ⟨1, _⟩ => ⟨(j 1).val, (j 1).isLt⟩

/-- The bias row stretched over the 2000 rows of a block reads, at (r, d), the row's entry (0, d). -/
theorem stretch_apply (x1 : Vec Ideal S1x128 .f32) (j : S2000x128.Idx) :
    broadcastTo S2000x128 x1 broadcasts_S1x128_S2000x128 j = x1 (biasUnder j) := by
  refine broadcastTo_apply x1 _ j (biasUnder j) ?_
  intro a
  match a with
  | ⟨0, _⟩ => rfl
  | ⟨1, _⟩ => rfl

/-- First launch, one block: entry (r, d) is max (x0 (r, d) + x1 (0, d)) 0. -/
theorem reluBlock_apply (x0 : Vec Ideal S2000x128 .f32) (x1 : Vec Ideal S1x128 .f32) (j : S2000x128.Idx) :
    k1_pay1 x0 x1 j = FloatOps.maximumf (F := Ideal) (FloatOps.addf (F := Ideal) (x0 j) (x1 (biasUnder j))) (FloatOps.ofBits (F := Ideal) .f32 0x00000000#32) := by
  unfold k1_pay1
  simp only [shapeCast_self]
  show FloatOps.maximumf (F := Ideal) (FloatOps.addf (F := Ideal) (x0 j) (broadcastTo S2000x128 x1 broadcasts_S1x128_S2000x128 j)) _ = _
  rw [stretch_apply]
  rfl

/-- Where the first launch's blocks sit: the input block and the output block of point n are both block (n, 0),
    the bias block is always block (0, 0). -/
theorem blockAt1 : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point n of the first launch writes back is block n of the whole-array bias-and-rectifier. -/
theorem region1_block (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.SparseConv.biasRelu (V c main_v6) (V c main_v7)) := by
  show (cfg1.win 2).cut (grid1.coords t) ((dat1 V c).after 2 t) = _
  rw [after1_2]
  unfold out1_2
  rw [View.canon_unit_zero zeroOffsets]
  simp only [View.ld_unit_zero (S := S2000x128) zeroOffsets, View.ld_unit_zero (S := S1x128) zeroOffsets]
  obtain ⟨e0, e1, e2, e3, e4, e5⟩ := blockAt1 t
  funext j
  show k1_pay1 (iblk1 V c 0 t) (iblk1 V c 1 t) j = Cert.SparseConv.biasRelu (V c main_v6) (V c main_v7) (((cfg1.win 2).blk t).view.emb j)
  rw [reluBlock_apply]
  show FloatOps.maximumf (F := Ideal) (FloatOps.addf (F := Ideal) (V c main_v6 (((cfg1.win 0).blk t).view.emb j)) (V c main_v7 (((cfg1.win 1).blk t).view.emb (biasUnder j)))) _
    = FloatOps.maximumf (F := Ideal) (FloatOps.addf (F := Ideal) (V c main_v6 (((cfg1.win 2).blk t).view.emb j)) (V c main_v7 (Cert.SparseConv.biasAt (((cfg1.win 2).blk t).view.emb j)))) _
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (biasUnder j) = Cert.SparseConv.biasAt (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- A point of the table is in point n's block iff each coordinate is in the block's range on its axis. -/
theorem mem_block1 (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v8).slice (win1_2.rect t)).set ↔ _
  rw [View.set_slice_whole, Rect.mem_set_unit]
  exact Iff.rfl

/-- Row n of the table lies in the block of point n / 2000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  let t : Fin cfg1.N := ⟨(i 0).val / 2000, by show (i 0).val / 2000 < 50; omega⟩
  obtain ⟨e0, e1, e2, e3, e4, e5⟩ := blockAt1 t
  have e4' : win1_2.index t (0 : Fin 2) = (i 0).val / 2000 := e4
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

theorem region1_value (V : (c : Dev nD) → (b : Ref sig .tc) → Buf (Elt Ideal) ((c : Thread nD τ).loc b)) (c : Dev nD) :
    (dat1 (F := Ideal) V c).arrAt 2 cfg1.N = Cert.SparseConv.biasRelu (V c main_v6) (V c main_v7) :=
  (dat1 (F := Ideal) V c).arrAt_eq_of_cover 2 _ (fun t _ => region1_block V c t) cover1

/-- Second launch, one block: entry (r, d) is (x0 (r, d) + x1 (0, d)) + x2 (r, d). -/
theorem resBlock_apply (x0 : Vec Ideal S2000x128 .f32) (x1 : Vec Ideal S1x128 .f32) (x2 : Vec Ideal S2000x128 .f32) (j : S2000x128.Idx) :
    k3_pay1 x0 x1 x2 j = FloatOps.addf (F := Ideal) (FloatOps.addf (F := Ideal) (x0 j) (x1 (biasUnder j))) (x2 j) := by
  unfold k3_pay1
  simp only [shapeCast_self]
  show FloatOps.addf (F := Ideal) (FloatOps.addf (F := Ideal) (x0 j) (broadcastTo S2000x128 x1 broadcasts_S1x128_S2000x128 j)) (x2 j) = _
  rw [stretch_apply]

/-- Where the second launch's blocks sit: both [2000, 128] input blocks and the output block of point n are block (n, 0),
    the bias block is always block (0, 0). -/
theorem blockAt3 : ∀ t : Fin cfg3.N, win3_0.index t (0 : Fin 2) = win3_3.index t (0 : Fin 2)
    ∧ win3_0.index t (1 : Fin 2) = win3_3.index t (1 : Fin 2)
    ∧ win3_1.index t (0 : Fin 2) = 0
    ∧ win3_1.index t (1 : Fin 2) = 0
    ∧ win3_2.index t (0 : Fin 2) = win3_3.index t (0 : Fin 2)
    ∧ win3_2.index t (1 : Fin 2) = win3_3.index t (1 : Fin 2)
    ∧ win3_3.index t (0 : Fin 2) = t.val
    ∧ win3_3.index t (1 : Fin 2) = 0 :=
  (by decide +kernel : ∀ t : Fin grid3.N, _)

/-- What point n of the second launch writes back is block n of the whole-array bias-and-residual. -/
theorem region3_block (V : (c : Dev nD) → (b : Ref sig .tc) → Buf (Elt Ideal) ((c : Thread nD τ).loc b)) (c : Dev nD) (t : Fin cfg3.N) :
    (dat3 (F := Ideal) V c).flushed 3 t
      = ((cfg3.win 3).blk t).view.read (Elt Ideal) (Cert.SparseConv.biasRes (V c main_v14) (V c main_v15) (V c main_arg0)) := by
  show (cfg3.win 3).cut (grid3.coords t) ((dat3 V c).after 3 t) = _
  rw [after3_3]
  unfold out3_3
  rw [View.canon_unit_zero zeroOffsets]
  simp only [View.ld_unit_zero (S := S2000x128) zeroOffsets, View.ld_unit_zero (S := S1x128) zeroOffsets]
  obtain ⟨e0, e1, e2, e3, e4, e5, e6, e7⟩ := blockAt3 t
  funext j
  show k3_pay1 (iblk3 V c 0 t) (iblk3 V c 1 t) (iblk3 V c 2 t) j
    = Cert.SparseConv.biasRes (V c main_v14) (V c main_v15) (V c main_arg0) (((cfg3.win 3).blk t).view.emb j)
  rw [resBlock_apply]
  show FloatOps.addf (F := Ideal) (FloatOps.addf (F := Ideal) (V c main_v14 (((cfg3.win 0).blk t).view.emb j)) (V c main_v15 (((cfg3.win 1).blk t).view.emb (biasUnder j)))) (V c main_arg0 (((cfg3.win 2).blk t).view.emb j))
    = FloatOps.addf (F := Ideal) (FloatOps.addf (F := Ideal) (V c main_v14 (((cfg3.win 3).blk t).view.emb j)) (V c main_v15 (Cert.SparseConv.biasAt (((cfg3.win 3).blk t).view.emb j)))) (V c main_arg0 (((cfg3.win 3).blk t).view.emb j))
  have h0 : ((cfg3.win 0).blk t).view.emb j = ((cfg3.win 3).blk t).view.emb j := by
    funext a; apply Fin.ext
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb (biasUnder j) = Cert.SparseConv.biasAt (((cfg3.win 3).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_3.index t (1 : Fin 2) * 128 + 1 * (j 1).val; omega
  have h2 : ((cfg3.win 2).blk t).view.emb j = ((cfg3.win 3).blk t).view.emb j := by
    funext a; apply Fin.ext
    match a with
    | ⟨0, _⟩ => show win3_2.index t (0 : Fin 2) * 2000 + 1 * (j 0).val = win3_3.index t (0 : Fin 2) * 2000 + 1 * (j 0).val; omega
    | ⟨1, _⟩ => show win3_2.index t (1 : Fin 2) * 128 + 1 * (j 1).val = win3_3.index t (1 : Fin 2) * 128 + 1 * (j 1).val; omega
  rw [h0, h1, h2]

/-- A point of the table is in point n's block iff each coordinate is in the block's range on its axis. -/
theorem mem_block3 (t : Fin cfg3.N) (i : S100000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v16).slice (win3_3.rect t)).set ↔ _
  rw [View.set_slice_whole, Rect.mem_set_unit]
  exact Iff.rfl

/-- Row n of the table lies in the block of point n / 2000. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  let t : Fin cfg3.N := ⟨(i 0).val / 2000, by show (i 0).val / 2000 < 50; omega⟩
  obtain ⟨e0, e1, e2, e3, e4, e5, e6, e7⟩ := blockAt3 t
  have e6' : win3_3.index t (0 : Fin 2) = (i 0).val / 2000 := e6
  refine ⟨t, flush3_3 t, ?_⟩
  rw [mem_block3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

theorem region3_value (V : (c : Dev nD) → (b : Ref sig .tc) → Buf (Elt Ideal) ((c : Thread nD τ).loc b)) (c : Dev nD) :
    (dat3 (F := Ideal) V c).arrAt 3 cfg3.N = Cert.SparseConv.biasRes (V c main_v14) (V c main_v15) (V c main_arg0) :=
  (dat3 (F := Ideal) V c).arrAt_eq_of_cover 3 _ (fun t _ => region3_block V c t) cover3

end Cert.KernelIdeal.Conv

end
-- ==== Proof.RefStages.lean ====
/- The reference computes each layer's product as one batched contraction: entry (k, p, d) is the sum over the 128 channels c of
   row (k, p, c) times weight (k, c, d), which is the named product once the contraction's two index maps are read coordinate by
   coordinate. Its bias step lays the 128-vector under every point through a one-row intermediate; read at (n, d) that is entry d of
   the vector, the same entry the row-major reshape of the vector to one row has at (0, d). The rectifier and the sums are pointwise. -/
import proofs.«428221_j16690242912796_1_alg».proof.Proof.Gen.ReferenceIdeal.Read
import proofs.«428221_j16690242912796_1_alg».proof.Proof.ConvSpec
import Idealize.ShloMosaic.Lib.ValueLayout

noncomputable section

namespace Cert.ReferenceIdeal.Conv

open Idealize.ShloMosaic Idealize.ShloMosaic.TcCoe Idealize.SL.Sem Cert.ReferenceIdeal Cert.ReferenceIdeal.Gen

/-- Entry d of a 128-vector, named by the column of a point-table index. -/
abbrev colAt (i : S100000x128.Idx) : S128.Idx := fun a => match a with
  | ⟨0, _⟩ => ⟨(i 1).val, (i 1).isLt⟩

/-- The bias as the reference lays it under the points ([128] → [1, 128] → [100000, 128]) reads, at (n, d), what the
    row-major reshape of the vector to one row holds at (0, d): both are entry d of the vector. -/
theorem bias_under_points {α : Type} (b : S128.Idx → α) (hsc : S128.ShapeCasts S1x128) (i : S100000x128.Idx) :
    broadcastInDim S100000x128 ![0, 1] bcast_S1x128_S100000x128_0_1 (broadcastInDim S1x128 ![1] bcast_S128_S1x128_1 b) i
      = shapeCast S1x128 b hsc (Cert.SparseConv.biasAt i) := by
  rw [broadcastInDim_apply _ bcast_S1x128_S100000x128_0_1 _ i (Cert.SparseConv.biasAt i) (fun a => match a with
        | ⟨0, _⟩ => by show 0 = if (1 : Nat) = 1 then 0 else (i 0).val; rw [if_pos rfl]
        | ⟨1, _⟩ => by show (i 1).val = if (128 : Nat) = 1 then 0 else (i 1).val; rw [if_neg (by decide)]),
    broadcastInDim_apply _ bcast_S128_S1x128_1 b (Cert.SparseConv.biasAt i) (colAt i) (fun a => match a with
        | ⟨0, _⟩ => by show (i 1).val = if (128 : Nat) = 1 then 0 else (i 1).val; rw [if_neg (by decide)]),
    shapeCast_apply b hsc (Cert.SparseConv.biasAt i) (colAt i) (by
      rw [Shape.rowMajor_val_one, Shape.rowMajor_val_two]
      show (i 1).val = 0 * 128 + (i 1).val
      omega)]

/-- The host's batched product (offset the batch axis, channel contracted) is `mm`. -/
theorem dot_eq_mm (g : FVec Ideal S27x50000x128 .f32) (w : FVec Ideal S27x128x128 .f32) :
    Host.dotGeneral (F := Ideal) dot_S27x50000x128_S27x128x128_S27x50000x128_2_1_1_2_0_0 none g w = Cert.SparseConv.mm g w := by
  funext i
  show _ = ∑ c : Fin 128, g (Cert.SparseConv.rowAt i c) * w (Cert.SparseConv.wtAt i c)
  simp only [Host.dotGeneral]
  -- the contraction runs over one axis of extent 128: index it by the channel
  rw [Ideal.dotGeneral_apply, ← Equiv.sum_comp (ValueIdx.contrEquiv1 dot_S27x50000x128_S27x128x128_S27x50000x128_2_1_1_2_0_0 128 rfl rfl).symm]
  refine Finset.sum_congr rfl fun k _ => ?_
  have hk := ValueIdx.contrEquiv1_symm_val dot_S27x50000x128_S27x128x128_S27x50000x128_2_1_1_2_0_0 128 rfl rfl k
  -- left operand: offset and pair from the result index, channel from the contraction
  have el : dot_S27x50000x128_S27x128x128_S27x50000x128_2_1_1_2_0_0.lhsIdx i ((ValueIdx.contrEquiv1 dot_S27x50000x128_S27x128x128_S27x50000x128_2_1_1_2_0_0 128 rfl rfl).symm k) = Cert.SparseConv.rowAt i k := funext fun a => Fin.ext (by
    match a with
    | ⟨0, _⟩ => exact Read.lhs_main_v7_0 _ _
    | ⟨1, _⟩ => exact Read.lhs_main_v7_1 _ _
    | ⟨2, _⟩ => exact (Read.lhs_main_v7_2 _ _).trans hk)
  -- right operand: offset and output channel from the result index, input channel from the contraction
  have er : dot_S27x50000x128_S27x128x128_S27x50000x128_2_1_1_2_0_0.rhsIdx i ((ValueIdx.contrEquiv1 dot_S27x50000x128_S27x128x128_S27x50000x128_2_1_1_2_0_0 128 rfl rfl).symm k) = Cert.SparseConv.wtAt i k := funext fun a => Fin.ext (by
    match a with
    | ⟨0, _⟩ => exact Read.rhs_main_v7_0 _ _
    | ⟨1, _⟩ => exact (Read.rhs_main_v7_1 _ _).trans hk
    | ⟨2, _⟩ => exact Read.rhs_main_v7_2 _ _)
  rw [el, er]

/-- Bias (a vector laid under every point) then the rectifier, as the reference spells them, is `biasRelu` of the bias reshaped to one row. -/
theorem bias_relu_eq (y : FVec Ideal S100000x128 .f32) (b : FVec Ideal S128 .f32) {hsc : S128.ShapeCasts S1x128} :
    maximumf (F := Ideal) (addf y (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = Cert.SparseConv.biasRelu y (shapeCast S1x128 b hsc) := by
  funext i
  -- sum and maximum are entrywise, and the broadcast scalar zero reads zero at every entry
  exact congrArg (fun z => FloatOps.maximumf (F := Ideal) (FloatOps.addf (F := Ideal) (y i) z) (FloatOps.ofBits (F := Ideal) .f32 0x00000000#32))
    (bias_under_points b hsc i)

/-- Bias then the residual, as the reference spells them, is `biasRes` of the bias reshaped to one row. -/
theorem bias_res_eq (y : FVec Ideal S100000x128 .f32) (b : FVec Ideal S128 .f32) (f : FVec Ideal S100000x128 .f32) {hsc : S128.ShapeCasts S1x128} :
    addf (F := Ideal) (addf y (broadcastInDim S100000x128 ![0, 1] bcast_S1x128_S100000x128_0_1 (broadcastInDim S1x128 ![1] bcast_S128_S1x128_1 b))) f
      = Cert.SparseConv.biasRes y (shapeCast S1x128 b hsc) f := by
  funext i
  exact congrArg (fun z => FloatOps.addf (F := Ideal) (FloatOps.addf (F := Ideal) (y i) z) (f i)) (bias_under_points b hsc i)

end Cert.ReferenceIdeal.Conv

end
-- ==== Proof.Chain.lean ====
/-
  The result array, walked back through the run. The buffers at each boundary of the run are a fold from the launch
  memory: a host stretch rewrites what it writes, a launch leaves its output array at what its write-backs leave.
  Boundary by boundary, the buffer that carries the computation is identified with the matching stage of the
  reference, as a whole array:
    masked gather of the point table            = the reference's gather        (indices in range)
    per-offset product of the gathered rows     = the reference's batched product
    scatter-add of the messages                 = the same operation on equal operands
    bias and rectifier, tile by tile            = bias and rectifier on the whole table
  and the same again for the second layer, ending with bias and residual. The arguments and the reshaped scatter
  indices are carried along unchanged: no stretch and no launch writes them.
-/
import proofs.«428221_j16690242912796_1_alg».proof.Proof.Gen.KernelIdeal.Frame
import proofs.«428221_j16690242912796_1_alg».proof.Proof.Gen.ReferenceIdeal.Read
import proofs.«428221_j16690242912796_1_alg».proof.Proof.ConvSpec
import proofs.«428221_j16690242912796_1_alg».proof.Proof.GatherStage
import proofs.«428221_j16690242912796_1_alg».proof.Proof.HostStretches
import proofs.«428221_j16690242912796_1_alg».proof.Proof.MatmulRegion0
import proofs.«428221_j16690242912796_1_alg».proof.Proof.MatmulRegion2
import proofs.«428221_j16690242912796_1_alg».proof.Proof.BiasRegions
import proofs.«428221_j16690242912796_1_alg».proof.Proof.RefStages

set_option maxRecDepth 16384

noncomputable section

namespace Cert.KernelIdeal.Conv

open Idealize.ShloMosaic Idealize.ShloMosaic.TcCoe Idealize.SL.Sem Idealize.ShloMosaic.StableHlo Cert.KernelIdeal Cert.KernelIdeal.Gen
open Cert.ReferenceIdeal.Read (val_main_v6 val_main_v7 val_main_v12 val_main_v16 val_main_v23 val_main_v24 val_main_v29 val_main_v33)

variable (m : (ℓ : Loc nD τ sig) → Buf (Elt Ideal) ℓ) (ρ : Dev nD → PrngReg)

/-- The point features, as launched. -/
abbrev A0 (c : Dev nD) : FVec Ideal S100000x128 .f32 := m ((c : Thread nD τ).loc main_arg0)
/-- The gather indices. -/
abbrev A1 (c : Dev nD) : IVec S27x50000 32 := m ((c : Thread nD τ).loc main_arg1)
/-- The scatter indices. -/
abbrev A2 (c : Dev nD) : IVec S27x50000 32 := m ((c : Thread nD τ).loc main_arg2)
/-- The first layer's weights and bias. -/
abbrev A3 (c : Dev nD) : FVec Ideal S27x128x128 .f32 := m ((c : Thread nD τ).loc main_arg3)
abbrev A4 (c : Dev nD) : FVec Ideal S128 .f32 := m ((c : Thread nD τ).loc main_arg4)
/-- The second layer's weights and bias. -/
abbrev A5 (c : Dev nD) : FVec Ideal S27x128x128 .f32 := m ((c : Thread nD τ).loc main_arg5)
abbrev A6 (c : Dev nD) : FVec Ideal S128 .f32 := m ((c : Thread nD τ).loc main_arg6)

/-- The gather indices lie in NumPy's index range of the point table. -/
def InRange (c : Dev nD) : Prop := ∀ i, -(100000 : Int) ≤ (A1 m c i).toInt ∧ (A1 m c i).toInt < (100000 : Int)

/-- The scatter indices as one long vector. -/
abbrev flatIdx (c : Dev nD) : IVec S1350000 32 := shapeCast S1350000 (A2 m c) shapeCasts_S27x50000_S1350000

/-! ## Before the first product launch -/

theorem W2_keeps (c : Dev nD) :
    W2 m ρ c (d main_arg0) = A0 m c ∧ W2 m ρ c (d main_arg1) = A1 m c ∧ W2 m ρ c (d main_arg3) = A3 m c
      ∧ W2 m ρ c (d main_arg4) = A4 m c ∧ W2 m ρ c (d main_arg5) = A5 m c ∧ W2 m ρ c (d main_arg6) = A6 m c
      ∧ W2 m ρ c (d main_v0) = flatIdx m c :=
  have k := keep0_1 (W1 m ρ c)
  have k0 := keep0 (W0 m ρ c)
  ⟨k.1.trans k0.1, k.2.1.trans k0.2.1, k.2.2.1.trans k0.2.2.1, k.2.2.2.1.trans k0.2.2.2.1,
    k.2.2.2.2.1.trans k0.2.2.2.2.1, k.2.2.2.2.2.1.trans k0.2.2.2.2.2, k.2.2.2.2.2.2.trans (indices_stretch (W0 m ρ c))⟩

/-- The gathered rows of the first layer are the reference's. -/
theorem W2_v1 (c : Dev nD) (hr : InRange m c) :
    W2 m ρ c (d main_v1) = val_main_v6 (F := Ideal) (A0 m c) (A1 m c) :=
  (take_stretch0 (W1 m ρ c)).trans <|
    (congrArg₂ takeFill (keep0 (W0 m ρ c)).1 (keep0 (W0 m ρ c)).2.1).trans (takeFill_eq (A0 m c) (A1 m c) hr)

/-! ## The first product launch -/

theorem W3_keeps (c : Dev nD) :
    W3 m ρ c (d main_arg0) = A0 m c ∧ W3 m ρ c (d main_arg1) = A1 m c ∧ W3 m ρ c (d main_arg4) = A4 m c
      ∧ W3 m ρ c (d main_arg5) = A5 m c ∧ W3 m ρ c (d main_arg6) = A6 m c ∧ W3 m ρ c (d main_v0) = flatIdx m c :=
  have k := W2_keeps m ρ c
  ⟨(W3_of_ne m ρ c main_arg0 (by decide)).trans k.1, (W3_of_ne m ρ c main_arg1 (by decide)).trans k.2.1,
    (W3_of_ne m ρ c main_arg4 (by decide)).trans k.2.2.2.1, (W3_of_ne m ρ c main_arg5 (by decide)).trans k.2.2.2.2.1,
    (W3_of_ne m ρ c main_arg6 (by decide)).trans k.2.2.2.2.2.1, (W3_of_ne m ρ c main_v0 (by decide)).trans k.2.2.2.2.2.2⟩

/-- The first layer's messages are the reference's. -/
theorem W3_v2 (c : Dev nD) (hr : InRange m c) :
    W3 m ρ c (d main_v2) = val_main_v7 (F := Ideal) (A0 m c) (A1 m c) (A3 m c) :=
  (W3_arr m ρ c 2).trans <| (region0_value (V2 m ρ) c).trans <|
    (congrArg₂ Cert.SparseConv.mm (W2_v1 m ρ c hr) (W2_keeps m ρ c).2.2.1).trans
      (Cert.ReferenceIdeal.Conv.dot_eq_mm _ _).symm

/-! ## The first scatter-add and the bias row -/

theorem W4_keeps (c : Dev nD) :
    W4 m ρ c (d main_arg0) = A0 m c ∧ W4 m ρ c (d main_arg1) = A1 m c ∧ W4 m ρ c (d main_arg5) = A5 m c
      ∧ W4 m ρ c (d main_arg6) = A6 m c ∧ W4 m ρ c (d main_v0) = flatIdx m c :=
  have k := keep1 (W3 m ρ c)
  have k3 := W3_keeps m ρ c
  ⟨k.1.trans k3.1, k.2.1.trans k3.2.1, k.2.2.1.trans k3.2.2.2.1, k.2.2.2.1.trans k3.2.2.2.2.1, k.2.2.2.2.trans k3.2.2.2.2.2⟩

section ScatterStages

-- the scatter-add is compared by its operands, never opened
attribute [local irreducible] Host.scatterAdd

/-- The reference's first scatter stage, spelt out: the rows of its product stage scatter-added into a zero table at
    the scatter indices read as one long vector. -/
theorem scatter_ref1 (x0 : FVec Ideal S100000x128 .f32) (x1 x2 : IVec S27x50000 32) (x3 : FVec Ideal S27x128x128 .f32) :
    Host.scatterAdd (F := Ideal) scatter_S100000x128_S1350000x1_S1350000x128_1_0_0_1
          (broadcastInDim S100000x128 ![] bcast_S_S100000x128 (constant (F := Ideal) S_ .f32 0x00000000#32))
          (broadcastInDim S1350000x1 ![0] bcast_S1350000_S1350000x1_0 (shapeCast S1350000 x2 shapeCasts_S27x50000_S1350000))
          (shapeCast S1350000x128 (val_main_v7 (F := Ideal) x0 x1 x3) shapeCasts_S27x50000x128_S1350000x128)
      = val_main_v12 (F := Ideal) x0 x1 x2 x3 := rfl

/-- The reference's second scatter stage, spelt out the same way. -/
theorem scatter_ref3 (x0 : FVec Ideal S100000x128 .f32) (x1 x2 : IVec S27x50000 32) (x3 : FVec Ideal S27x128x128 .f32)
    (x4 : FVec Ideal S128 .f32) (x5 : FVec Ideal S27x128x128 .f32) :
    Host.scatterAdd (F := Ideal) scatter_S100000x128_S1350000x1_S1350000x128_1_0_0_1
          (broadcastInDim S100000x128 ![] bcast_S_S100000x128 (constant (F := Ideal) S_ .f32 0x00000000#32))
          (broadcastInDim S1350000x1 ![0] bcast_S1350000_S1350000x1_0 (shapeCast S1350000 x2 shapeCasts_S27x50000_S1350000))
          (shapeCast S1350000x128 (val_main_v24 (F := Ideal) x0 x1 x2 x3 x4 x5) shapeCasts_S27x50000x128_S1350000x128)
      = val_main_v29 (F := Ideal) x0 x1 x2 x3 x4 x5 := rfl

end ScatterStages

/-- The first layer's scattered sums are the reference's. -/
theorem W4_v6 (c : Dev nD) (hr : InRange m c) :
    W4 m ρ c (d main_v6) = val_main_v12 (F := Ideal) (A0 m c) (A1 m c) (A2 m c) (A3 m c) := by
  refine (scatter_stretch1 (W3 m ρ c)).trans ?_
  rw [(W3_keeps m ρ c).2.2.2.2.2, W3_v2 m ρ c hr]
  exact scatter_ref1 _ _ _ _

/-- The first layer's bias as one row. -/
theorem W4_v7 (c : Dev nD) : W4 m ρ c (d main_v7) = shapeCast S1x128 (A4 m c) shapeCasts_S128_S1x128 :=
  (bias_stretch1 (W3 m ρ c)).trans (congrArg (fun b : FVec Ideal S128 .f32 => shapeCast S1x128 b shapeCasts_S128_S1x128) (W3_keeps m ρ c).2.2.1)

/-! ## The bias-and-rectifier launch -/

theorem W5_keeps (c : Dev nD) :
    W5 m ρ c (d main_arg0) = A0 m c ∧ W5 m ρ c (d main_arg1) = A1 m c ∧ W5 m ρ c (d main_arg5) = A5 m c
      ∧ W5 m ρ c (d main_arg6) = A6 m c ∧ W5 m ρ c (d main_v0) = flatIdx m c :=
  have k := W4_keeps m ρ c
  ⟨(W5_of_ne m ρ c main_arg0 (by decide)).trans k.1, (W5_of_ne m ρ c main_arg1 (by decide)).trans k.2.1,
    (W5_of_ne m ρ c main_arg5 (by decide)).trans k.2.2.1, (W5_of_ne m ρ c main_arg6 (by decide)).trans k.2.2.2.1,
    (W5_of_ne m ρ c main_v0 (by decide)).trans k.2.2.2.2⟩

/-- The first layer's output is the reference's. -/
theorem W5_v8 (c : Dev nD) (hr : InRange m c) :
    W5 m ρ c (d main_v8) = val_main_v16 (F := Ideal) (A0 m c) (A1 m c) (A2 m c) (A3 m c) (A4 m c) :=
  (W5_arr m ρ c 2).trans <| (region1_value (V4 m ρ) c).trans <|
    (congrArg₂ Cert.SparseConv.biasRelu (W4_v6 m ρ c hr) (W4_v7 m ρ c)).trans
      (Cert.ReferenceIdeal.Conv.bias_relu_eq _ _).symm

/-! ## The second layer -/

theorem W6_keeps (c : Dev nD) :
    W6 m ρ c (d main_arg0) = A0 m c ∧ W6 m ρ c (d main_arg5) = A5 m c ∧ W6 m ρ c (d main_arg6) = A6 m c
      ∧ W6 m ρ c (d main_v0) = flatIdx m c :=
  have k := keep2 (W5 m ρ c)
  have k5 := W5_keeps m ρ c
  ⟨k.1.trans k5.1, k.2.1.trans k5.2.2.1, k.2.2.1.trans k5.2.2.2.1, k.2.2.2.trans k5.2.2.2.2⟩

/-- The gathered rows of the second layer are the reference's. -/
theorem W6_v9 (c : Dev nD) (hr : InRange m c) :
    W6 m ρ c (d main_v9) = val_main_v23 (F := Ideal) (A0 m c) (A1 m c) (A2 m c) (A3 m c) (A4 m c) :=
  (take_stretch2 (W5 m ρ c)).trans <|
    (congrArg₂ takeFill (W5_v8 m ρ c hr) (W5_keeps m ρ c).2.1).trans (takeFill_eq _ (A1 m c) hr)

theorem W7_keeps (c : Dev nD) :
    W7 m ρ c (d main_arg0) = A0 m c ∧ W7 m ρ c (d main_arg6) = A6 m c ∧ W7 m ρ c (d main_v0) = flatIdx m c :=
  have k := W6_keeps m ρ c
  ⟨(W7_of_ne m ρ c main_arg0 (by decide)).trans k.1, (W7_of_ne m ρ c main_arg6 (by decide)).trans k.2.2.1,
    (W7_of_ne m ρ c main_v0 (by decide)).trans k.2.2.2⟩

/-- The second layer's messages are the reference's. -/
theorem W7_v10 (c : Dev nD) (hr : InRange m c) :
    W7 m ρ c (d main_v10) = val_main_v24 (F := Ideal) (A0 m c) (A1 m c) (A2 m c) (A3 m c) (A4 m c) (A5 m c) :=
  (W7_arr m ρ c 2).trans <| (region2_value (V6 m ρ) c).trans <|
    (congrArg₂ Cert.SparseConv.mm (W6_v9 m ρ c hr) (W6_keeps m ρ c).2.1).trans
      (Cert.ReferenceIdeal.Conv.dot_eq_mm _ _).symm

/-- The second layer's scattered sums are the reference's. -/
theorem W8_v14 (c : Dev nD) (hr : InRange m c) :
    W8 m ρ c (d main_v14) = val_main_v29 (F := Ideal) (A0 m c) (A1 m c) (A2 m c) (A3 m c) (A4 m c) (A5 m c) := by
  refine (scatter_stretch3 (W7 m ρ c)).trans ?_
  rw [(W7_keeps m ρ c).2.2, W7_v10 m ρ c hr]
  exact scatter_ref3 _ _ _ _ _ _

/-- The second layer's bias as one row. -/
theorem W8_v15 (c : Dev nD) : W8 m ρ c (d main_v15) = shapeCast S1x128 (A6 m c) shapeCasts_S128_S1x128 :=
  (bias_stretch3 (W7 m ρ c)).trans (congrArg (fun b : FVec Ideal S128 .f32 => shapeCast S1x128 b shapeCasts_S128_S1x128) (W7_keeps m ρ c).2.1)

theorem W8_arg0 (c : Dev nD) : W8 m ρ c (d main_arg0) = A0 m c :=
  (keep3 (W7 m ρ c)).trans (W7_keeps m ρ c).1

/-! ## The bias-and-residual launch: the result -/

/-- THE RESULT ARRAY after the run is the reference's result, as a function of the arguments as launched. -/
theorem result_value (c : Dev nD) (hr : InRange m c) :
    W9 m ρ c (d main_v16) = val_main_v33 (F := Ideal) (A0 m c) (A1 m c) (A2 m c) (A3 m c) (A4 m c) (A5 m c) (A6 m c) :=
  (W9_arr m ρ c 3).trans <| (region3_value (V8 m ρ) c).trans <|
    (congrArg₂ (fun (y : FVec Ideal S100000x128 .f32) (b : FVec Ideal S1x128 .f32) =>
        Cert.SparseConv.biasRes y b (V8 m ρ c main_arg0)) (W8_v14 m ρ c hr) (W8_v15 m ρ c)).trans <|
      (congrArg (fun f : FVec Ideal S100000x128 .f32 => Cert.SparseConv.biasRes _ _ f) (W8_arg0 m ρ c)).trans
        (Cert.ReferenceIdeal.Conv.bias_res_eq _ _ _).symm

end Cert.KernelIdeal.Conv

end
-- ==== Proof.lean ====
/-
  A two-layer sparse convolution over 100000 points with 128 channels, against its plain jnp statement.
  One layer: gather 27 x 50000 rows of the point table by an index input, multiply the rows of kernel offset k by that
  offset's 128 x 128 weight matrix, scatter-add the 1350000 product rows back to points by a second index input, add
  a bias row. The first layer ends in a rectifier; the second adds the point table itself.

  The two programs do the gathers and the scatter-adds with the same host operations. They differ in three places.
  (1) One program's gather replaces a row whose wrapped index falls outside [0, 99999] by a fill word, the other's
  does not; with every index in NumPy's range [-100000, 100000) of the table (the precondition's last conjunct) no row
  is replaced. (2) One program multiplies tile by tile, 10000 rows at a time, through a narrower float format, into a
  zero accumulator; over the extended reals a change of format is the identity and a tile's entry is the same sum over
  the 128 channels as the whole batched product's entry. (3) One program applies bias, rectifier and residual tile by
  tile, 2000 points at a time, the other on whole tables; entry by entry they are the same expressions.
  Nothing here needs the finiteness of the inputs: sums over the extended reals are taken in the same order on both
  sides, and no law that fails at an infinity is used.

  The three frames are the generated ones. The value claim: the run of the four launches leaves the result array at a
  fold of the launch memory through the host stretches and the launches' write-backs; that fold is walked back stage
  by stage, each stage identified with the matching stage of the reference's run as a whole array.
-/
import proofs.«428221_j16690242912796_1_alg».proof.Defs
import proofs.«428221_j16690242912796_1_alg».proof.Proof.Gen.Kernel
import proofs.«428221_j16690242912796_1_alg».proof.Proof.Gen.Kernel.Skeleton
import proofs.«428221_j16690242912796_1_alg».proof.Proof.Gen.Kernel.Launch
import proofs.«428221_j16690242912796_1_alg».proof.Proof.Gen.Kernel.Points
import proofs.«428221_j16690242912796_1_alg».proof.Proof.Gen.Kernel.Frame
import proofs.«428221_j16690242912796_1_alg».proof.Proof.Gen.KernelIdeal
import proofs.«428221_j16690242912796_1_alg».proof.Proof.Gen.KernelIdeal.Skeleton
import proofs.«428221_j16690242912796_1_alg».proof.Proof.Gen.KernelIdeal.Launch
import proofs.«428221_j16690242912796_1_alg».proof.Proof.Gen.KernelIdeal.Points
import proofs.«428221_j16690242912796_1_alg».proof.Proof.Gen.KernelIdeal.Frame
import proofs.«428221_j16690242912796_1_alg».proof.Proof.Gen.ReferenceIdeal
import proofs.«428221_j16690242912796_1_alg».proof.Proof.Gen.ReferenceIdeal.Run
import proofs.«428221_j16690242912796_1_alg».proof.Proof.Gen.ReferenceIdeal.Read
import proofs.«428221_j16690242912796_1_alg».proof.Proof.Gen.Pre_finite_inputs
import proofs.«428221_j16690242912796_1_alg».proof.Proof.KernelIdealRun
import proofs.«428221_j16690242912796_1_alg».proof.Proof.PreRange
import proofs.«428221_j16690242912796_1_alg».proof.Proof.Chain
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- So does the program read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the reference's last
    stage, as a function of the arguments, is what the four launches leave (the gather indices in range by the
    precondition). -/
theorem algebraic : Cert.algebraic_KernelIdeal_ReferenceIdeal := by
  intro m ρ m' ρ' hpre hagree
  refine ⟨fun c => Cert.KernelIdeal.Gen.W9 (F := Ideal) m ρ c (Proc.devRef .tc Cert.KernelIdeal.main_v16),
    Cert.KernelIdeal.Conv.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2]
  rw [Cert.ReferenceIdeal.Read.val_main_v33_eq]
  exact (Cert.KernelIdeal.Conv.result_value m ρ c (fun i => Cert.KernelIdeal.Conv.in_map_range m hpre c i)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
